-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x16x128 : Shape := ⟨3, ![2048, 16, 128]⟩
abbrev S1x34x128 : Shape := ⟨3, ![1, 34, 128]⟩
abbrev S478 : Shape := ⟨1, ![478]⟩
abbrev S_ : Shape := ⟨0, ![]⟩

class Facts : Prop where
  bcast_S_S2048x16x128 : S_.BroadcastsInDim S2048x16x128 (![] : Fin 0 → Fin S2048x16x128.rank)
  reducesTo_S2048x16x128_S_d0_1_2 : S2048x16x128.ReducesTo [0, 1, 2] S_
  h_S_ : 0 < S_.numel
  bcast_S_S1x34x128 : S_.BroadcastsInDim S1x34x128 (![] : Fin 0 → Fin S1x34x128.rank)
  reducesTo_S1x34x128_S_d0_1_2 : S1x34x128.ReducesTo [0, 1, 2] S_
  bcast_S_S478 : S_.BroadcastsInDim S478 (![] : Fin 0 → Fin S478.rank)
  reducesTo_S478_S_d0 : S478.ReducesTo [0] S_

variable [Facts]

def fn_part2 {F : FTy → Type} [FloatOps F] (main_arg7 : IVec S478 32) (main_v30 : IVec S_ 1) (main_v32 : IVec S478 1) : IVec S_ 1 :=
  let main_c_13 : IVec S_ 1 := constantI S_ 1 1#1
  let main_v33 : IVec S_ 1 := (fun x v => Host.reduce IntOp.andi x v reducesTo_S478_S_d0 h_S_) main_v32 main_c_13
  let main_v34 : IVec S_ 1 := andi main_v30 main_v33
  let main_c_14 : IVec S_ 32 := constantI S_ 32 0#32
  let main_v35 : IVec S478 32 := broadcastInDim S478 ![] bcast_S_S478 main_c_14
  let main_v36 : IVec S478 1 := cmpi .sge main_arg7 main_v35
  let main_c_15 : IVec S_ 1 := constantI S_ 1 1#1
  let main_v37 : IVec S_ 1 := (fun x v => Host.reduce IntOp.andi x v reducesTo_S478_S_d0 h_S_) main_v36 main_c_15
  let main_v38 : IVec S_ 1 := andi main_v34 main_v37
  let main_c_16 : IVec S_ 32 := constantI S_ 32 16#32
  let main_v39 : IVec S478 32 := broadcastInDim S478 ![] bcast_S_S478 main_c_16
  let main_v40 : IVec S478 1 := cmpi .slt main_arg7 main_v39
  let main_c_17 : IVec S_ 1 := constantI S_ 1 1#1
  let main_v41 : IVec S_ 1 := (fun x v => Host.reduce IntOp.andi x v reducesTo_S478_S_d0 h_S_) main_v40 main_c_17
  let main_v42 : IVec S_ 1 := andi main_v38 main_v41
  main_v42

def fn_part1 {F : FTy → Type} [FloatOps F] (main_arg4 : IVec S478 32) (main_arg5 : IVec S478 32) (main_arg7 : IVec S478 32) (main_v13 : IVec S_ 1) (main_v16 : IVec S478 1) : IVec S_ 1 :=
  let main_c_5 : IVec S_ 1 := constantI S_ 1 1#1
  let main_v17 : IVec S_ 1 := (fun x v => Host.reduce IntOp.andi x v reducesTo_S478_S_d0 h_S_) main_v16 main_c_5
  let main_v18 : IVec S_ 1 := andi main_v13 main_v17
  let main_c_6 : IVec S_ 32 := constantI S_ 32 0#32
  let main_v19 : IVec S478 32 := broadcastInDim S478 ![] bcast_S_S478 main_c_6
  let main_v20 : IVec S478 1 := cmpi .sge main_arg4 main_v19
  let main_c_7 : IVec S_ 1 := constantI S_ 1 1#1
  let main_v21 : IVec S_ 1 := (fun x v => Host.reduce IntOp.andi x v reducesTo_S478_S_d0 h_S_) main_v20 main_c_7
  let main_v22 : IVec S_ 1 := andi main_v18 main_v21
  let main_c_8 : IVec S_ 32 := constantI S_ 32 16#32
  let main_v23 : IVec S478 32 := broadcastInDim S478 ![] bcast_S_S478 main_c_8
  let main_v24 : IVec S478 1 := cmpi .slt main_arg4 main_v23
  let main_c_9 : IVec S_ 1 := constantI S_ 1 1#1
  let main_v25 : IVec S_ 1 := (fun x v => Host.reduce IntOp.andi x v reducesTo_S478_S_d0 h_S_) main_v24 main_c_9
  let main_v26 : IVec S_ 1 := andi main_v22 main_v25
  let main_c_10 : IVec S_ 32 := constantI S_ 32 0#32
  let main_v27 : IVec S478 32 := broadcastInDim S478 ![] bcast_S_S478 main_c_10
  let main_v28 : IVec S478 1 := cmpi .sge main_arg5 main_v27
  let main_c_11 : IVec S_ 1 := constantI S_ 1 1#1
  let main_v29 : IVec S_ 1 := (fun x v => Host.reduce IntOp.andi x v reducesTo_S478_S_d0 h_S_) main_v28 main_c_11
  let main_v30 : IVec S_ 1 := andi main_v26 main_v29
  let main_c_12 : IVec S_ 32 := constantI S_ 32 16#32
  let main_v31 : IVec S478 32 := broadcastInDim S478 ![] bcast_S_S478 main_c_12
  let main_v32 : IVec S478 1 := cmpi .slt main_arg5 main_v31
  fn_part2 (F := F) main_arg7 main_v30 main_v32

def fn {F : FTy → Type} [FloatOps F] (main_arg0 : FVec F S2048x16x128 .f32) (main_arg1 : FVec F S2048x16x128 .f32) (main_arg2 : FVec F S1x34x128 .f32) (main_arg3 : FVec F S478 .f32) (main_arg4 : IVec S478 32) (main_arg5 : IVec S478 32) (main_arg6 : IVec S478 32) (main_arg7 : IVec S478 32) : IVec S_ 1 :=
  let main_v0 : FVec F S2048x16x128 .f32 := Host.absf main_arg0
  let main_cst : FVec F S_ .f32 := constant S_ .f32 0x7F800000#32
  let main_v1 : FVec F S2048x16x128 .f32 := broadcastInDim S2048x16x128 ![] bcast_S_S2048x16x128 main_cst
  let main_v2 : IVec S2048x16x128 1 := cmpf .olt main_v0 main_v1
  let main_c : IVec S_ 1 := constantI S_ 1 1#1
  let main_v3 : IVec S_ 1 := (fun x v => Host.reduce IntOp.andi x v reducesTo_S2048x16x128_S_d0_1_2 h_S_) main_v2 main_c
  let main_v4 : FVec F S2048x16x128 .f32 := Host.absf main_arg1
  let main_cst_0 : FVec F S_ .f32 := constant S_ .f32 0x7F800000#32
  let main_v5 : FVec F S2048x16x128 .f32 := broadcastInDim S2048x16x128 ![] bcast_S_S2048x16x128 main_cst_0
  let main_v6 : IVec S2048x16x128 1 := cmpf .olt main_v4 main_v5
  let main_c_1 : IVec S_ 1 := constantI S_ 1 1#1
  let main_v7 : IVec S_ 1 := (fun x v => Host.reduce IntOp.andi x v reducesTo_S2048x16x128_S_d0_1_2 h_S_) main_v6 main_c_1
  let main_v8 : IVec S_ 1 := andi main_v3 main_v7
  let main_v9 : FVec F S1x34x128 .f32 := Host.absf main_arg2
  let main_cst_2 : FVec F S_ .f32 := constant S_ .f32 0x7F800000#32
  let main_v10 : FVec F S1x34x128 .f32 := broadcastInDim S1x34x128 ![] bcast_S_S1x34x128 main_cst_2
  let main_v11 : IVec S1x34x128 1 := cmpf .olt main_v9 main_v10
  let main_c_3 : IVec S_ 1 := constantI S_ 1 1#1
  let main_v12 : IVec S_ 1 := (fun x v => Host.reduce IntOp.andi x v reducesTo_S1x34x128_S_d0_1_2 h_S_) main_v11 main_c_3
  let main_v13 : IVec S_ 1 := andi main_v8 main_v12
  let main_v14 : FVec F S478 .f32 := Host.absf main_arg3
  let main_cst_4 : FVec F S_ .f32 := constant S_ .f32 0x7F800000#32
  let main_v15 : FVec F S478 .f32 := broadcastInDim S478 ![] bcast_S_S478 main_cst_4
  let main_v16 : IVec S478 1 := cmpf .olt main_v14 main_v15
  fn_part1 (F := F) main_arg4 main_arg5 main_arg7 main_v13 main_v16
-- ==== Kernel.lean ====
abbrev S2048x16x128 : Shape := ⟨3, ![2048, 16, 128]⟩
abbrev S1x34x128 : Shape := ⟨3, ![1, 34, 128]⟩
abbrev S478 : Shape := ⟨1, ![478]⟩
abbrev S_ : Shape := ⟨0, ![]⟩
abbrev S512 : Shape := ⟨1, ![512]⟩
abbrev S16 : Shape := ⟨1, ![16]⟩
abbrev S512x1 : Shape := ⟨2, ![512, 1]⟩
abbrev S1x16 : Shape := ⟨2, ![1, 16]⟩
abbrev S512x16 : Shape := ⟨2, ![512, 16]⟩
abbrev S1x512 : Shape := ⟨2, ![1, 512]⟩
abbrev S16x1 : Shape := ⟨2, ![16, 1]⟩
abbrev S16x512 : Shape := ⟨2, ![16, 512]⟩
abbrev S34x128 : Shape := ⟨2, ![34, 128]⟩
abbrev S512x128 : Shape := ⟨2, ![512, 128]⟩
abbrev S1x512x1x128 : Shape := ⟨4, ![1, 512, 1, 128]⟩
abbrev S1x512x64x128 : Shape := ⟨4, ![1, 512, 64, 128]⟩
abbrev S512x8192 : Shape := ⟨2, ![512, 8192]⟩
abbrev S16x2048x128 : Shape := ⟨3, ![16, 2048, 128]⟩
abbrev S16x262144 : Shape := ⟨2, ![16, 262144]⟩
abbrev S16x8192 : Shape := ⟨2, ![16, 8192]⟩
abbrev S128x16 : Shape := ⟨2, ![128, 16]⟩
abbrev S16x128 : Shape := ⟨2, ![16, 128]⟩
abbrev S128x8192 : Shape := ⟨2, ![128, 8192]⟩

abbrev nBuf : Space → Nat
  | .hbm => 66
  | .vmem => 10
  | .smem => 0
  | _ => 0

abbrev bufTy : (tb : Table) → Fin (tcTables nBuf tb) → BufTy
  | .hbm, ⟨0, _⟩ => ⟨S2048x16x128, .f32⟩
  | .hbm, ⟨1, _⟩ => ⟨S2048x16x128, .f32⟩
  | .hbm, ⟨2, _⟩ => ⟨S1x34x128, .f32⟩
  | .hbm, ⟨3, _⟩ => ⟨S478, .f32⟩
  | .hbm, ⟨4, _⟩ => ⟨S478, .i32⟩
  | .hbm, ⟨5, _⟩ => ⟨S478, .i32⟩
  | .hbm, ⟨6, _⟩ => ⟨S478, .i32⟩
  | .hbm, ⟨7, _⟩ => ⟨S478, .i32⟩
  | .hbm, ⟨8, _⟩ => ⟨S_, .i32⟩
  | .hbm, ⟨9, _⟩ => ⟨S_, .f32⟩
  | .hbm, ⟨10, _⟩ => ⟨S512, .f32⟩
  | .hbm, ⟨11, _⟩ => ⟨S_, .i32⟩
  | .hbm, ⟨12, _⟩ => ⟨S_, .i32⟩
  | .hbm, ⟨13, _⟩ => ⟨S512, .i32⟩
  | .hbm, ⟨14, _⟩ => ⟨S_, .i32⟩
  | .hbm, ⟨15, _⟩ => ⟨S_, .i32⟩
  | .hbm, ⟨16, _⟩ => ⟨S512, .i32⟩
  | .hbm, ⟨17, _⟩ => ⟨S_, .i32⟩
  | .hbm, ⟨18, _⟩ => ⟨S_, .i32⟩
  | .hbm, ⟨19, _⟩ => ⟨S512, .i32⟩
  | .hbm, ⟨20, _⟩ => ⟨S_, .i32⟩
  | .hbm, ⟨21, _⟩ => ⟨S_, .i32⟩
  | .hbm, ⟨22, _⟩ => ⟨S512, .i32⟩
  | .hbm, ⟨23, _⟩ => ⟨S16, .i32⟩
  | .hbm, ⟨24, _⟩ => ⟨S512x1, .i32⟩
  | .hbm, ⟨25, _⟩ => ⟨S1x16, .i32⟩
  | .hbm, ⟨26, _⟩ => ⟨S512x16, .i32⟩
  | .hbm, ⟨27, _⟩ => ⟨S512x16, .i32⟩
  | .hbm, ⟨28, _⟩ => ⟨S512x16, .i1⟩
  | .hbm, ⟨29, _⟩ => ⟨S512x16, .bf16⟩
  | .hbm, ⟨30, _⟩ => ⟨S512x1, .i32⟩
  | .hbm, ⟨31, _⟩ => ⟨S1x16, .i32⟩
  | .hbm, ⟨32, _⟩ => ⟨S512x16, .i32⟩
  | .hbm, ⟨33, _⟩ => ⟨S512x16, .i32⟩
  | .hbm, ⟨34, _⟩ => ⟨S512x16, .i1⟩
  | .hbm, ⟨35, _⟩ => ⟨S512x16, .bf16⟩
  | .hbm, ⟨36, _⟩ => ⟨S16, .i32⟩
  | .hbm, ⟨37, _⟩ => ⟨S1x512, .i32⟩
  | .hbm, ⟨38, _⟩ => ⟨S16x1, .i32⟩
  | .hbm, ⟨39, _⟩ => ⟨S16x512, .i32⟩
  | .hbm, ⟨40, _⟩ => ⟨S16x512, .i32⟩
  | .hbm, ⟨41, _⟩ => ⟨S16x512, .i1⟩
  | .hbm, ⟨42, _⟩ => ⟨S16x512, .bf16⟩
  | .hbm, ⟨43, _⟩ => ⟨S34x128, .f32⟩
  | .hbm, ⟨44, _⟩ => ⟨S_, .i32⟩
  | .hbm, ⟨45, _⟩ => ⟨S512, .i32⟩
  | .hbm, ⟨46, _⟩ => ⟨S512, .i1⟩
  | .hbm, ⟨47, _⟩ => ⟨S_, .i32⟩
  | .hbm, ⟨48, _⟩ => ⟨S512, .i32⟩
  | .hbm, ⟨49, _⟩ => ⟨S512, .i32⟩
  | .hbm, ⟨50, _⟩ => ⟨S512, .i32⟩
  | .hbm, ⟨51, _⟩ => ⟨S512x1, .i32⟩
  | .hbm, ⟨52, _⟩ => ⟨S512x128, .f32⟩
  | .hbm, ⟨53, _⟩ => ⟨S512x1, .f32⟩
  | .hbm, ⟨54, _⟩ => ⟨S512x128, .f32⟩
  | .hbm, ⟨55, _⟩ => ⟨S512x128, .f32⟩
  | .hbm, ⟨56, _⟩ => ⟨S1x512x1x128, .f32⟩
  | .hbm, ⟨57, _⟩ => ⟨S1x512x64x128, .f32⟩
  | .hbm, ⟨58, _⟩ => ⟨S512x8192, .f32⟩
  | .hbm, ⟨59, _⟩ => ⟨S16x2048x128, .f32⟩
  | .hbm, ⟨60, _⟩ => ⟨S16x262144, .f32⟩
  | .hbm, ⟨61, _⟩ => ⟨S16x2048x128, .f32⟩
  | .hbm, ⟨62, _⟩ => ⟨S16x262144, .f32⟩
  | .hbm, ⟨63, _⟩ => ⟨S16x262144, .f32⟩
  | .hbm, ⟨64, _⟩ => ⟨S16x2048x128, .f32⟩
  | .hbm, ⟨65, _⟩ => ⟨S2048x16x128, .f32⟩
  | .local _ .vmem, ⟨0, _⟩ => ⟨S16x8192, .f32⟩
  | .local _ .vmem, ⟨1, _⟩ => ⟨S16x8192, .f32⟩
  | .local _ .vmem, ⟨2, _⟩ => ⟨S16x8192, .f32⟩
  | .local _ .vmem, ⟨3, _⟩ => ⟨S16x8192, .f32⟩
  | .local _ .vmem, ⟨4, _⟩ => ⟨S512x16, .bf16⟩
  | .local _ .vmem, ⟨5, _⟩ => ⟨S512x16, .bf16⟩
  | .local _ .vmem, ⟨6, _⟩ => ⟨S16x512, .bf16⟩
  | .local _ .vmem, ⟨7, _⟩ => ⟨S512x8192, .f32⟩
  | .local _ .vmem, ⟨8, _⟩ => ⟨S16x8192, .f32⟩
  | .local _ .vmem, ⟨9, _⟩ => ⟨S16x8192, .f32⟩
  | _, _ => ⟨S2048x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_c_0 : Ref sig .tc := ⟨.hbm, 11, rfl⟩
abbrev main_call1_v0 : Ref sig .tc := ⟨.hbm, 12, rfl⟩
abbrev main_v1 : Ref sig .tc := ⟨.hbm, 13, rfl⟩
abbrev main_c_1 : Ref sig .tc := ⟨.hbm, 14, rfl⟩
abbrev main_call2_v0 : Ref sig .tc := ⟨.hbm, 15, rfl⟩
abbrev main_v2 : Ref sig .tc := ⟨.hbm, 16, rfl⟩
abbrev main_c_2 : Ref sig .tc := ⟨.hbm, 17, rfl⟩
abbrev main_call3_v0 : Ref sig .tc := ⟨.hbm, 18, rfl⟩
abbrev main_v3 : Ref sig .tc := ⟨.hbm, 19, rfl⟩
abbrev main_c_3 : Ref sig .tc := ⟨.hbm, 20, rfl⟩
abbrev main_call4_v0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_4 : Ref sig .tc := ⟨.hbm, 44, rfl⟩
abbrev main_v26 : Ref sig .tc := ⟨.hbm, 45, rfl⟩
abbrev main_v27 : Ref sig .tc := ⟨.hbm, 46, rfl⟩
abbrev main_c_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def k0_mult1 : BitVec 32 :=
  let c0_i32 : BitVec 32 := 0#32
  let c128_i32 : BitVec 32 := 128#32
  let v7 : BitVec 32 := Scalar.muli c0_i32 c128_i32
  v7
def k0_off1 (c0_i32 : BitVec 32) : Fin 2 → Nat :=
  let c128_i32 : BitVec 32 := 128#32
  let v7 : BitVec 32 := Scalar.muli c0_i32 c128_i32
  let v8 : BitVec 32 := v7
  let v9 : Index := Scalar.indexCast v8
  let c0_3 : Index := 0#32
  ![v9.toNat, 0]
def k0_off2 (c0_i32 : BitVec 32) : Fin 2 → Nat :=
  let c0_5 : Index := 0#32
  let c128_i32 : BitVec 32 := 128#32
  let v7 : BitVec 32 := Scalar.muli c0_i32 c128_i32
  let v8 : BitVec 32 := v7
  let v15 : Index := Scalar.indexCast v8
  ![0, v15.toNat]
def k0_off3 (c0_i32 : BitVec 32) : Fin 2 → Nat :=
  let c128_i32 : BitVec 32 := 128#32
  let v7 : BitVec 32 := Scalar.muli c0_i32 c128_i32
  let v8 : BitVec 32 := v7
  let v18 : Index := Scalar.indexCast v8
  let c0_6 : Index := 0#32
  ![v18.toNat, 0]
def k0_mult2 : BitVec 32 :=
  let c1_i32 : BitVec 32 := 1#32
  let c128_i32_10 : BitVec 32 := 128#32
  let v28 : BitVec 32 := Scalar.muli c1_i32 c128_i32_10
  v28
def k0_mult3 : BitVec 32 :=
  let c2_i32 : BitVec 32 := 2#32
  let c128_i32_18 : BitVec 32 := 128#32
  let v49 : BitVec 32 := Scalar.muli c2_i32 c128_i32_18
  v49
def k0_mult4 : BitVec 32 :=
  let c3_i32 : BitVec 32 := 3#32
  let c128_i32_26 : BitVec 32 := 128#32
  let v70 : BitVec 32 := Scalar.muli c3_i32 c128_i32_26
  v70
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x16 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S16x8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  pads_S478_S512_0340 : S478.Pads (![0] : Fin 1 → Nat) ![34] ![0] S512
  h_S_ : 0 < S_.numel
  bcast_S512_S512x1_0 : S512.BroadcastsInDim S512x1 (![0] : Fin 1 → Fin S512x1.rank)
  bcast_S16_S1x16_1 : S16.BroadcastsInDim S1x16 (![1] : Fin 1 → Fin S1x16.rank)
  bcast_S512x1_S512x16_0_1 : S512x1.BroadcastsInDim S512x16 (![0, 1] : Fin 2 → Fin S512x16.rank)
  bcast_S1x16_S512x16_0_1 : S1x16.BroadcastsInDim S512x16 (![0, 1] : Fin 2 → Fin S512x16.rank)
  bcast_S512_S1x512_1 : S512.BroadcastsInDim S1x512 (![1] : Fin 1 → Fin S1x512.rank)
  bcast_S16_S16x1_0 : S16.BroadcastsInDim S16x1 (![0] : Fin 1 → Fin S16x1.rank)
  bcast_S1x512_S16x512_0_1 : S1x512.BroadcastsInDim S16x512 (![0, 1] : Fin 2 → Fin S16x512.rank)
  bcast_S16x1_S16x512_0_1 : S16x1.BroadcastsInDim S16x512 (![0, 1] : Fin 2 → Fin S16x512.rank)
  shapeCasts_S1x34x128_S34x128 : S1x34x128.ShapeCasts S34x128
  bcast_S_S512 : S_.BroadcastsInDim S512 (![] : Fin 0 → Fin S512.rank)
  bcast_S512x1_S512x128_0_1 : S512x1.BroadcastsInDim S512x128 (![0, 1] : Fin 2 → Fin S512x128.rank)
  shapeCasts_S512x128_S1x512x1x128 : S512x128.ShapeCasts S1x512x1x128
  bcast_S1x512x1x128_S1x512x64x128_0_1_2_3 : S1x512x1x128.BroadcastsInDim S1x512x64x128 (![0, 1, 2, 3] : Fin 4 → Fin S1x512x64x128.rank)
  shapeCasts_S1x512x64x128_S512x8192 : S1x512x64x128.ShapeCasts S512x8192
  transposes_S2048x16x128_S16x2048x128_1_0_2 : S2048x16x128.Transposes [1, 0, 2] S16x2048x128
  shapeCasts_S16x2048x128_S16x262144 : S16x2048x128.ShapeCasts S16x262144
  inb_S16x8192_S16x8192_0_0 : ∀ a, (![0, 0] : Fin 2 → Nat) a + S16x8192.size a ≤ S16x8192.size a
  h_S16x8192 : 0 < S16x8192.numel
  shapeCasts_S16x8192_S16x8192 : S16x8192.ShapeCasts S16x8192
  bitsLt_bf16_f32 : FTy.bits .bf16 < FTy.bits .f32
  h_S128x16 : 0 < S128x16.numel
  shapeCasts_S128x16_S128x16 : S128x16.ShapeCasts S128x16
  h_S16x128 : 0 < S16x128.numel
  shapeCasts_S16x128_S16x128 : S16x128.ShapeCasts S16x128
  h_S128x8192 : 0 < S128x8192.numel
  shapeCasts_S128x8192_S128x8192 : S128x8192.ShapeCasts S128x8192
  shapeCasts_S16x262144_S16x2048x128 : S16x262144.ShapeCasts S16x2048x128
  transposes_S16x2048x128_S2048x16x128_1_0_2 : S16x2048x128.Transposes [1, 0, 2] S2048x16x128
  gather_S34x128_S512x1_S512x128_1_0_n_n_0_1_1128_wf : GatherDims.WF S34x128 S512x1 S512x128 [1] [0] [] [0] [] 1 ![1, 128]
  dot_S128x16_S16x8192_S128x8192_1_0_0_1_n_n_wf : DotDims.WF S128x16 S16x8192 S128x8192 [1] [0] [0] [1] [] []
  dot_S16x128_S128x8192_S16x8192_1_0_0_1_n_n_wf : DotDims.WF S16x128 S128x8192 S16x8192 [1] [0] [0] [1] [] []
  hrank0 : 0 < grid0.rank
  k0_mult1_dvd : 128 ∣ k0_mult1.toNat
  k0_off1_inb : ∀ (r : Fin 4), ∀ a, (k0_off1 (BitVec.ofNat 32 r.val)) a + S128x16.size a ≤ S512x16.size a
  k0_off2_inb : ∀ (r : Fin 4), ∀ a, (k0_off2 (BitVec.ofNat 32 r.val)) a + S16x128.size a ≤ S16x512.size a
  k0_off3_inb : ∀ (r : Fin 4), ∀ a, (k0_off3 (BitVec.ofNat 32 r.val)) a + S128x8192.size a ≤ S512x8192.size a
  k0_mult2_dvd : 128 ∣ k0_mult2.toNat
  k0_mult3_dvd : 128 ∣ k0_mult3.toNat
  k0_mult4_dvd : 128 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x8192.size a ≤ S16x262144.size a
  hwx0_0 : ∀ i : grid0.Coords, EltTy.bits .f32 = 32 ∨ (Rect.block (s := S16x262144) S16x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x8192.size a ≤ S16x262144.size a
  hwx0_1 : ∀ i : grid0.Coords, EltTy.bits .f32 = 32 ∨ (Rect.block (s := S16x262144) S16x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x16.size a ≤ S512x16.size a
  hwx0_2 : ∀ i : grid0.Coords, EltTy.bits .bf16 = 32 ∨ (Rect.block (s := S512x16) S512x16.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x16.size a ≤ S512x16.size a
  hwx0_3 : ∀ i : grid0.Coords, EltTy.bits .bf16 = 32 ∨ (Rect.block (s := S512x16) S512x16.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x512.size a ≤ S16x512.size a
  hwx0_4 : ∀ i : grid0.Coords, EltTy.bits .bf16 = 32 ∨ (Rect.block (s := S16x512) S16x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x8192.size a ≤ S512x8192.size a
  hwx0_5 : ∀ i : grid0.Coords, EltTy.bits .f32 = 32 ∨ (Rect.block (s := S512x8192) S512x8192.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16x8192.size a ≤ S16x262144.size a
  hwx0_6 : ∀ i : grid0.Coords, EltTy.bits .f32 = 32 ∨ (Rect.block (s := S16x262144) S16x8192.size (cc0_transform_6 i) (hinb0_6 i)).WholeWords (EltTy.packing .f32)

variable [Facts₀]

def gather_S34x128_S512x1_S512x128_1_0_n_n_0_1_1128 : GatherDims S34x128 S512x1 S512x128 where
  offsetDims := [1]
  collapsedSliceDims := [0]
  operandBatchingDims := []
  startIndicesBatchingDims := []
  startIndexMap := [0]
  indexVectorDim := 1
  sliceSizes := ![1, 128]
  wf := gather_S34x128_S512x1_S512x128_1_0_n_n_0_1_1128_wf
def dot_S128x16_S16x8192_S128x8192_1_0_0_1_n_n : DotDims S128x16 S16x8192 S128x8192 where
  lhsContracting := [1]
  rhsContracting := [0]
  lhsNonContracting := [0]
  rhsNonContracting := [1]
  lhsBatch := []
  rhsBatch := []
  wf := dot_S128x16_S16x8192_S128x8192_1_0_0_1_n_n_wf
def dot_S16x128_S128x8192_S16x8192_1_0_0_1_n_n : DotDims S16x128 S128x8192 S16x8192 where
  lhsContracting := [1]
  rhsContracting := [0]
  lhsNonContracting := [0]
  rhsNonContracting := [1]
  lhsBatch := []
  rhsBatch := []
  wf := dot_S16x128_S128x8192_S16x8192_1_0_0_1_n_n_wf

abbrev win0_0 : Pipeline.Window sig grid0 :=
  Pipeline.Window.ofSpec (Memref.whole main_v40) S16x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v42) S16x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S512x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S512x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S16x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v38) S512x8192.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v43) S16x8192.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2048x16x128 : Shape := ⟨3, ![2048, 16, 128]⟩
abbrev S1x34x128 : Shape := ⟨3, ![1, 34, 128]⟩
abbrev S478 : Shape := ⟨1, ![478]⟩
abbrev S_ : Shape := ⟨0, ![]⟩
abbrev S478x1 : Shape := ⟨2, ![478, 1]⟩
abbrev S2048x478x128 : Shape := ⟨3, ![2048, 478, 128]⟩
abbrev S1x478x1 : Shape := ⟨3, ![1, 478, 1]⟩
abbrev S1x478x128 : Shape := ⟨3, ![1, 478, 128]⟩

abbrev nBuf : Space → Nat
  | .hbm => 52
  | .vmem => 0
  | .smem => 0
  | _ => 0

abbrev bufTy : (tb : Table) → Fin (tcTables nBuf tb) → BufTy
  | .hbm, ⟨0, _⟩ => ⟨S2048x16x128, .f32⟩
  | .hbm, ⟨1, _⟩ => ⟨S2048x16x128, .f32⟩
  | .hbm, ⟨2, _⟩ => ⟨S1x34x128, .f32⟩
  | .hbm, ⟨3, _⟩ => ⟨S478, .f32⟩
  | .hbm, ⟨4, _⟩ => ⟨S478, .i32⟩
  | .hbm, ⟨5, _⟩ => ⟨S478, .i32⟩
  | .hbm, ⟨6, _⟩ => ⟨S478, .i32⟩
  | .hbm, ⟨7, _⟩ => ⟨S478, .i32⟩
  | .hbm, ⟨8, _⟩ => ⟨S_, .i32⟩
  | .hbm, ⟨9, _⟩ => ⟨S478, .i32⟩
  | .hbm, ⟨10, _⟩ => ⟨S478, .i1⟩
  | .hbm, ⟨11, _⟩ => ⟨S_, .i32⟩
  | .hbm, ⟨12, _⟩ => ⟨S478, .i32⟩
  | .hbm, ⟨13, _⟩ => ⟨S478, .i32⟩
  | .hbm, ⟨14, _⟩ => ⟨S478, .i32⟩
  | .hbm, ⟨15, _⟩ => ⟨S478x1, .i32⟩
  | .hbm, ⟨16, _⟩ => ⟨S2048x478x128, .f32⟩
  | .hbm, ⟨17, _⟩ => ⟨S_, .i32⟩
  | .hbm, ⟨18, _⟩ => ⟨S478, .i32⟩
  | .hbm, ⟨19, _⟩ => ⟨S478, .i1⟩
  | .hbm, ⟨20, _⟩ => ⟨S_, .i32⟩
  | .hbm, ⟨21, _⟩ => ⟨S478, .i32⟩
  | .hbm, ⟨22, _⟩ => ⟨S478, .i32⟩
  | .hbm, ⟨23, _⟩ => ⟨S478, .i32⟩
  | .hbm, ⟨24, _⟩ => ⟨S478x1, .i32⟩
  | .hbm, ⟨25, _⟩ => ⟨S2048x478x128, .f32⟩
  | .hbm, ⟨26, _⟩ => ⟨S2048x478x128, .f32⟩
  | .hbm, ⟨27, _⟩ => ⟨S1x478x1, .f32⟩
  | .hbm, ⟨28, _⟩ => ⟨S2048x478x128, .f32⟩
  | .hbm, ⟨29, _⟩ => ⟨S2048x478x128, .f32⟩
  | .hbm, ⟨30, _⟩ => ⟨S_, .i32⟩
  | .hbm, ⟨31, _⟩ => ⟨S478, .i32⟩
  | .hbm, ⟨32, _⟩ => ⟨S478, .i1⟩
  | .hbm, ⟨33, _⟩ => ⟨S_, .i32⟩
  | .hbm, ⟨34, _⟩ => ⟨S478, .i32⟩
  | .hbm, ⟨35, _⟩ => ⟨S478, .i32⟩
  | .hbm, ⟨36, _⟩ => ⟨S478, .i32⟩
  | .hbm, ⟨37, _⟩ => ⟨S478x1, .i32⟩
  | .hbm, ⟨38, _⟩ => ⟨S1x478x128, .f32⟩
  | .hbm, ⟨39, _⟩ => ⟨S2048x478x128, .f32⟩
  | .hbm, ⟨40, _⟩ => ⟨S2048x478x128, .f32⟩
  | .hbm, ⟨41, _⟩ => ⟨S_, .f32⟩
  | .hbm, ⟨42, _⟩ => ⟨S2048x16x128, .f32⟩
  | .hbm, ⟨43, _⟩ => ⟨S_, .i32⟩
  | .hbm, ⟨44, _⟩ => ⟨S478, .i32⟩
  | .hbm, ⟨45, _⟩ => ⟨S478, .i1⟩
  | .hbm, ⟨46, _⟩ => ⟨S_, .i32⟩
  | .hbm, ⟨47, _⟩ => ⟨S478, .i32⟩
  | .hbm, ⟨48, _⟩ => ⟨S478, .i32⟩
  | .hbm, ⟨49, _⟩ => ⟨S478, .i32⟩
  | .hbm, ⟨50, _⟩ => ⟨S478x1, .i32⟩
  | .hbm, ⟨51, _⟩ => ⟨S2048x16x128, .f32⟩
  | _, _ => ⟨S2048x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]

class Facts₀ : Prop where
  bcast_S_S478 : S_.BroadcastsInDim S478 (![] : Fin 0 → Fin S478.rank)
  bcast_S478_S478x1_0 : S478.BroadcastsInDim S478x1 (![0] : Fin 1 → Fin S478x1.rank)
  bcast_S478_S1x478x1_1 : S478.BroadcastsInDim S1x478x1 (![1] : Fin 1 → Fin S1x478x1.rank)
  bcast_S1x478x1_S2048x478x128_0_1_2 : S1x478x1.BroadcastsInDim S2048x478x128 (![0, 1, 2] : Fin 3 → Fin S2048x478x128.rank)
  bcast_S1x478x128_S2048x478x128_0_1_2 : S1x478x128.BroadcastsInDim S2048x478x128 (![0, 1, 2] : Fin 3 → Fin S2048x478x128.rank)
  bcast_S_S2048x16x128 : S_.BroadcastsInDim S2048x16x128 (![] : Fin 0 → Fin S2048x16x128.rank)
  gather_S2048x16x128_S478x1_S2048x478x128_02_1_n_n_1_1_20481128_wf : GatherDims.WF S2048x16x128 S478x1 S2048x478x128 [0, 2] [1] [] [1] [] 1 ![2048, 1, 128]
  gather_S1x34x128_S478x1_S1x478x128_02_1_n_n_1_1_11128_wf : GatherDims.WF S1x34x128 S478x1 S1x478x128 [0, 2] [1] [] [1] [] 1 ![1, 1, 128]
  scatter_S2048x16x128_S478x1_S2048x478x128_02_1_1_1_wf : ScatterDims.WF S2048x16x128 S478x1 S2048x478x128 [0, 2] [1] [1] 1

variable [Facts₀]

def gather_S2048x16x128_S478x1_S2048x478x128_02_1_n_n_1_1_20481128 : GatherDims S2048x16x128 S478x1 S2048x478x128 where
  offsetDims := [0, 2]
  collapsedSliceDims := [1]
  operandBatchingDims := []
  startIndicesBatchingDims := []
  startIndexMap := [1]
  indexVectorDim := 1
  sliceSizes := ![2048, 1, 128]
  wf := gather_S2048x16x128_S478x1_S2048x478x128_02_1_n_n_1_1_20481128_wf
def gather_S1x34x128_S478x1_S1x478x128_02_1_n_n_1_1_11128 : GatherDims S1x34x128 S478x1 S1x478x128 where
  offsetDims := [0, 2]
  collapsedSliceDims := [1]
  operandBatchingDims := []
  startIndicesBatchingDims := []
  startIndexMap := [1]
  indexVectorDim := 1
  sliceSizes := ![1, 1, 128]
  wf := gather_S1x34x128_S478x1_S1x478x128_02_1_n_n_1_1_11128_wf
def scatter_S2048x16x128_S478x1_S2048x478x128_02_1_1_1 : ScatterDims S2048x16x128 S478x1 S2048x478x128 where
  updateWindowDims := [0, 2]
  insertedWindowDims := [1]
  scatterDimsToOperandDims := [1]
  indexVectorDim := 1
  wf := scatter_S2048x16x128_S478x1_S2048x478x128_02_1_1_1_wf

class Facts : Prop extends Facts₀ where

variable [Facts]
-- ==== Proof.Spec.lean ====
/-
  The weighted tensor product as plain functions of index tuples.

  Inputs: two feature arrays `x1, x2 : [2048, 16, 128]`, a weight table `w : [1, 34, 128]`, `478` coupling
  coefficients `cg`, and four columns of `478` integer words: `i1, i2` name a row (an order in `[0, 16)`) of `x1`
  and `x2`, `il` a row of the weight table, `is` the output order a term is summed into.

  Two spellings of the result are defined here.
  * `refSum`: at `(b, o, k)`, zero plus the sum over the terms `e` whose (wrapped) output order is `o` of
    `x1[b, i1 e, k] · x2[b, i2 e, k] · cg e · w[0, il e, k]`, each row index wrapped once (a negative word plus the
    extent) and clamped into its axis, as an indexed read does.
  * `tileSum`: the same quantity laid out as a computation over a `[16, 262144]` relayout of the features (column
    `q = 128·b + k`), `512 = 4 · 128` padded terms, one-hot selector tables for the two row reads and for the output
    order, and a pre-multiplied `weight · cg` table repeated along `64` batch slots: four partial sums of `128` terms,
    added to zero one after the other.
-/
import Idealize.ShloMosaic.PureOps.Ideal
import Idealize.ShloMosaic.Lib.ValueIdx

noncomputable section

namespace Cert.Wtp

open Idealize.ShloMosaic Idealize.ShloMosaic.ValueIdx
open scoped BigOperators

abbrev SX : Shape := ⟨3, ![2048, 16, 128]⟩
abbrev SW : Shape := ⟨3, ![1, 34, 128]⟩
abbrev SN : Shape := ⟨1, ![478]⟩
abbrev SQ : Shape := ⟨2, ![16, 262144]⟩
abbrev SB : Shape := ⟨2, ![16, 8192]⟩
abbrev SR : Shape := ⟨2, ![512, 16]⟩
abbrev SC : Shape := ⟨2, ![16, 512]⟩
abbrev ST : Shape := ⟨2, ![512, 8192]⟩

/-- An index word wrapped once: a negative word has the axis extent `n` added. -/
def wrap (n v : BitVec 32) : BitVec 32 := Scalar.select (IntOp.cmpi .slt v 0#32) (IntOp.addi v n) v

/-- An index word read signed and clamped into `[0, N - 1]`. -/
def clampTo (N : Nat) (hN : 0 < N) (v : BitVec 32) : Fin N := ⟨min v.toInt.toNat (N - 1), by omega⟩

/-- One term of the tensor product at batch `b`, term `e`, channel `k`. -/
def refTerm (x1 x2 : SX.Idx → EReal) (w : SW.Idx → EReal) (cg : SN.Idx → EReal) (i1 i2 il : SN.Idx → BitVec 32)
    (b : Fin 2048) (e : Fin 478) (k : Fin 128) : EReal :=
  ((x1 (ix3 b (clampTo 16 (by decide) (wrap 16#32 (i1 (ix1 e)))) k) * x2 (ix3 b (clampTo 16 (by decide) (wrap 16#32 (i2 (ix1 e)))) k))
      * cg (ix1 e)) * w (ix3 (0 : Fin 1) (clampTo 34 (by decide) (wrap 34#32 (il (ix1 e)))) k)

/-- The tensor product as a segment sum: zero plus the terms whose wrapped output order is `o`. -/
def refSum (x1 x2 : SX.Idx → EReal) (w : SW.Idx → EReal) (cg : SN.Idx → EReal) (i1 i2 il is : SN.Idx → BitVec 32)
    (b : Fin 2048) (o : Fin 16) (k : Fin 128) : EReal :=
  0 + ∑ e ∈ Finset.univ.filter (fun e : Fin 478 => (wrap 16#32 (is (ix1 e))).toInt = (o.val : ℤ)),
    refTerm x1 x2 w cg i1 i2 il b e k

/-! ## The tiled layout -/

/-- A feature array relaid as `[16, 2048·128]`: row = order, column `q = 128·b + k`. -/
def relay (x : SX.Idx → EReal) : SQ.Idx → EReal :=
  fun i => x (ix3 (⟨(i 1).val / 128, by have h : (i 1).val < 262144 := (i 1).isLt; omega⟩ : Fin 2048) (⟨(i 0).val, (i 0).isLt⟩ : Fin 16)
    (⟨(i 1).val % 128, Nat.mod_lt _ (by decide)⟩ : Fin 128))

/-- A column of `478` words padded to `512` with `fill`. -/
def padW (fill : BitVec 32) (v : SN.Idx → BitVec 32) (n : Fin 512) : BitVec 32 :=
  if h : n.val < 478 then v (ix1 ⟨n.val, h⟩) else fill

/-- A column of `478` values padded to `512` with zero. -/
def padE (v : SN.Idx → EReal) (n : Fin 512) : EReal :=
  if h : n.val < 478 then v (ix1 ⟨n.val, h⟩) else 0

/-- The selector of a word against a position: one where they agree, zero elsewhere. -/
def sel (a : BitVec 32) (m : Nat) : EReal := if a = BitVec.ofNat 32 m then 1 else 0

/-- The `512 × 16` one-hot table of a column of row indices (padding reads row `0`). -/
def onehotRows (v : SN.Idx → BitVec 32) : SR.Idx → EReal :=
  fun i => sel (padW 0#32 v ⟨(i 0).val, (i 0).isLt⟩) (i 1).val

/-- The `16 × 512` one-hot table of the output orders (padding names order `16`, which no row matches). -/
def onehotCols (v : SN.Idx → BitVec 32) : SC.Idx → EReal :=
  fun i => sel (padW 16#32 v ⟨(i 1).val, (i 1).isLt⟩) (i 0).val

/-- The `512 × 8192` table `weight[il n] · cg n`, its `128` channels repeated over `64` batch slots. -/
def wcgTable (w : SW.Idx → EReal) (cg : SN.Idx → EReal) (il : SN.Idx → BitVec 32) : ST.Idx → EReal :=
  fun i => w (ix3 (0 : Fin 1) (clampTo 34 (by decide) (wrap 34#32 (padW 0#32 il ⟨(i 0).val, (i 0).isLt⟩)))
      (⟨(i 1).val % 128, Nat.mod_lt _ (by decide)⟩ : Fin 128))
    * padE cg ⟨(i 0).val, (i 0).isLt⟩

/-- Term `n` of a tile at output order `o`: the output selector times the two selected rows times the table entry.
    `X1, X2` are the two feature columns (by order), `T` the table's entry for this column. -/
def tileTerm (O1 O2 : SR.Idx → EReal) (OS : SC.Idx → EReal) (X1 X2 : Fin 16 → EReal) (T : Fin 512 → EReal)
    (o : Fin 16) (n : Fin 512) : EReal :=
  OS (ix2 o n) * (((∑ m : Fin 16, O1 (ix2 n m) * X1 m) * (∑ m : Fin 16, O2 (ix2 n m) * X2 m)) * T n)

/-- Partial sum `r` (terms `128·r … 128·r + 127`). -/
def tileChunk (O1 O2 : SR.Idx → EReal) (OS : SC.Idx → EReal) (X1 X2 : Fin 16 → EReal) (T : Fin 512 → EReal)
    (o : Fin 16) (r : Fin 4) : EReal :=
  ∑ j : Fin 128, tileTerm O1 O2 OS X1 X2 T o ⟨128 * r.val + j.val, by have := r.isLt; have := j.isLt; omega⟩

/-- The four partial sums added to zero in order. -/
def tileAcc (O1 O2 : SR.Idx → EReal) (OS : SC.Idx → EReal) (X1 X2 : Fin 16 → EReal) (T : Fin 512 → EReal) (o : Fin 16) : EReal :=
  (((0 + tileChunk O1 O2 OS X1 X2 T o 0) + tileChunk O1 O2 OS X1 X2 T o 1) + tileChunk O1 O2 OS X1 X2 T o 2)
    + tileChunk O1 O2 OS X1 X2 T o 3

/-- One `[16, 8192]` tile's result from its two feature tiles and the four resident tables. -/
def tileOut (XA XB : SB.Idx → EReal) (O1 O2 : SR.Idx → EReal) (OS : SC.Idx → EReal) (WC : ST.Idx → EReal) : SB.Idx → EReal :=
  fun i => tileAcc O1 O2 OS (fun m => XA (ix2 m (⟨(i 1).val, (i 1).isLt⟩ : Fin 8192)))
    (fun m => XB (ix2 m (⟨(i 1).val, (i 1).isLt⟩ : Fin 8192))) (fun n => WC (ix2 n (⟨(i 1).val, (i 1).isLt⟩ : Fin 8192)))
    ⟨(i 0).val, (i 0).isLt⟩

/-- The whole `[16, 262144]` result: column `q` lies in tile `q / 8192` at local column `q % 8192`, and the tables
    do not depend on the tile. -/
def arrayOut (X1 X2 : SQ.Idx → EReal) (O1 O2 : SR.Idx → EReal) (OS : SC.Idx → EReal) (WC : ST.Idx → EReal) : SQ.Idx → EReal :=
  fun i => tileAcc O1 O2 OS (fun m => X1 (ix2 m (⟨(i 1).val, (i 1).isLt⟩ : Fin 262144)))
    (fun m => X2 (ix2 m (⟨(i 1).val, (i 1).isLt⟩ : Fin 262144)))
    (fun n => WC (ix2 n (⟨(i 1).val % 8192, Nat.mod_lt _ (by decide)⟩ : Fin 8192)))
    ⟨(i 0).val, (i 0).isLt⟩

/-- The result relaid back to `[2048, 16, 128]`. -/
def unrelay (A : SQ.Idx → EReal) : SX.Idx → EReal :=
  fun i => A (ix2 (⟨(i 1).val, (i 1).isLt⟩ : Fin 16)
    (⟨(i 0).val * 128 + (i 2).val, by have h0 : (i 0).val < 2048 := (i 0).isLt; have h2 : (i 2).val < 128 := (i 2).isLt; omega⟩ : Fin 262144))

/-- The tiled computation from the eight inputs. -/
def tileSum (x1 x2 : SX.Idx → EReal) (w : SW.Idx → EReal) (cg : SN.Idx → EReal) (i1 i2 il is : SN.Idx → BitVec 32) : SX.Idx → EReal :=
  unrelay (arrayOut (relay x1) (relay x2) (onehotRows i1) (onehotRows i2) (onehotCols is) (wcgTable w cg il))

end Cert.Wtp

end
-- ==== Proof.LibMidGatherScatter.lean ====
/-
  A three-axis array `[B, N, C]` gathered along its MIDDLE axis by, and scattered-and-added along it at, a column of
  `E` integer index words, read at one entry.

  * The gather (what `x[:, idx, :]` lowers to: the middle axis collapsed, the outer two offset axes, the start index
    naming a middle coordinate) reads, at `(b, e, k)`, the operand at `(b, i, k)` with `i` the index word `e` read as a
    signed integer and clamped into `[0, N - 1]`.
  * The accumulating scatter (what `.at[:, idx, :].add` lowers to), at the ideal values, leaves at `(b, i, k)` the
    operand's entry plus the sum of the updates' entries `(b, e, k)` over the `e` whose index word, read signed and NOT
    clamped, is `i`; an index word that names no middle coordinate contributes nowhere.
-/
import Idealize.ShloMosaic.PureOps.Ideal
import Idealize.ShloMosaic.Lib.ValueIdx

noncomputable section

namespace Cert.Wtp

open Idealize.ShloMosaic Idealize.ShloMosaic.ValueIdx
open scoped BigOperators

/-- The dimension numbers of a middle-axis gather: operand `B × N × C`, start indices `E × 1`, result `B × E × C`. -/
abbrev midGatherDims (B N E C : Nat)
    (wf : GatherDims.WF ⟨3, ![B, N, C]⟩ ⟨2, ![E, 1]⟩ ⟨3, ![B, E, C]⟩ [0, 2] [1] [] [1] [] 1 ![B, 1, C]) :
    GatherDims ⟨3, ![B, N, C]⟩ ⟨2, ![E, 1]⟩ ⟨3, ![B, E, C]⟩ where
  offsetDims := [0, 2]
  collapsedSliceDims := [1]
  operandBatchingDims := []
  startIndicesBatchingDims := []
  startIndexMap := [1]
  indexVectorDim := 1
  sliceSizes := ![B, 1, C]
  wf := wf

/-- THE MIDDLE-AXIS GATHER READ AT `(b, e, k)`. -/
theorem gather_mid_apply {α : Type} {B N E C w : Nat} (hN : 0 < N)
    (wf : GatherDims.WF ⟨3, ![B, N, C]⟩ ⟨2, ![E, 1]⟩ ⟨3, ![B, E, C]⟩ [0, 2] [1] [] [1] [] 1 ![B, 1, C])
    (x : (⟨3, ![B, N, C]⟩ : Shape).Idx → α) (idx : IVec ⟨2, ![E, 1]⟩ w) (b : Fin B) (e : Fin E) (k : Fin C) :
    Host.gather (midGatherDims B N E C wf) x idx (ix3 b e k)
      = x (ix3 b ⟨min (idx (ix2 e (0 : Fin 1))).toInt.toNat (N - 1), by omega⟩ k) := by
  unfold Host.gather
  congr 1
  funext a
  refine Fin.ext ?_
  show (midGatherDims B N E C wf).start (ix3 b e k) idx a + (midGatherDims B N E C wf).batchCoord (ix3 b e k) a
      + (midGatherDims B N E C wf).offCoord (ix3 b e k) a = _
  rw [GatherDims.batchCoord_eq_zero _ _ _ List.not_mem_nil]
  match a with
  | ⟨0, _⟩ =>
    -- an offset axis: no start component, the offset coordinate is the result's coordinate 0
    show (midGatherDims B N E C wf).start (ix3 b e k) idx (0 : Fin 3) + 0
        + (midGatherDims B N E C wf).offCoord (ix3 b e k) (0 : Fin 3) = b.val
    have hs : (midGatherDims B N E C wf).start (ix3 b e k) idx (0 : Fin 3) = 0 := by
      unfold GatherDims.start
      rw [dif_neg (show (0 : Fin 3) ∉ ([1] : List (Fin 3)) from by decide)]
    have hm : (0 : Fin 3) ∈ (midGatherDims B N E C wf).sKept :=
      (GatherDims.mem_sKept _ _).mpr ⟨show (0 : Fin 3) ∉ ([1] : List (Fin 3)) from by decide, List.not_mem_nil⟩
    rw [hs]
    unfold GatherDims.offCoord
    rw [dif_pos hm]
    simp only [Nat.zero_add]
    rfl
  | ⟨1, _⟩ =>
    -- the indexed axis: collapsed, so no offset; the start is the index word read signed and clamped to N - 1
    rw [GatherDims.offCoord_eq_zero _ _ _ (fun h => ((GatherDims.mem_sKept _ _).mp h).1 (List.mem_singleton.mpr rfl))]
    simp only [Nat.add_zero]
    unfold GatherDims.start
    rw [dif_pos (show (⟨1, by decide⟩ : Fin 3) ∈ (midGatherDims B N E C wf).startIndexMap from List.mem_singleton.mpr rfl)]
    have hsi : (midGatherDims B N E C wf).siIdx (ix3 b e k) ⟨List.idxOf (⟨1, by decide⟩ : Fin 3) (midGatherDims B N E C wf).startIndexMap,
        List.idxOf_lt_length_iff.2 (List.mem_singleton.mpr rfl)⟩ = ix2 e (0 : Fin 1) := by
      funext c; refine Fin.ext ?_
      match c with
      | ⟨0, _⟩ => rfl
      | ⟨1, _⟩ => rfl
    rw [hsi]
    rfl
  | ⟨2, _⟩ =>
    -- the other offset axis: the offset coordinate is the result's coordinate 2
    show (midGatherDims B N E C wf).start (ix3 b e k) idx (2 : Fin 3) + 0
        + (midGatherDims B N E C wf).offCoord (ix3 b e k) (2 : Fin 3) = k.val
    have hs : (midGatherDims B N E C wf).start (ix3 b e k) idx (2 : Fin 3) = 0 := by
      unfold GatherDims.start
      rw [dif_neg (show (2 : Fin 3) ∉ ([1] : List (Fin 3)) from by decide)]
    have hm : (2 : Fin 3) ∈ (midGatherDims B N E C wf).sKept :=
      (GatherDims.mem_sKept _ _).mpr ⟨show (2 : Fin 3) ∉ ([1] : List (Fin 3)) from by decide, List.not_mem_nil⟩
    rw [hs]
    unfold GatherDims.offCoord
    rw [dif_pos hm]
    simp only [Nat.zero_add]
    rfl

/-- The dimension numbers of a middle-axis scatter: operand `B × N × C`, scatter indices `E × 1`, updates `B × E × C`. -/
abbrev midScatterDims (B N E C : Nat)
    (wf : ScatterDims.WF ⟨3, ![B, N, C]⟩ ⟨2, ![E, 1]⟩ ⟨3, ![B, E, C]⟩ [0, 2] [1] [1] 1) :
    ScatterDims ⟨3, ![B, N, C]⟩ ⟨2, ![E, 1]⟩ ⟨3, ![B, E, C]⟩ where
  updateWindowDims := [0, 2]
  insertedWindowDims := [1]
  scatterDimsToOperandDims := [1]
  indexVectorDim := 1
  wf := wf

/-! ## Where one update lands -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

section
variable {B N E C w : Nat} (wf : ScatterDims.WF ⟨3, ![B, N, C]⟩ ⟨2, ![E, 1]⟩ ⟨3, ![B, E, C]⟩ [0, 2] [1] [1] 1)
  (idx : IVec ⟨2, ![E, 1]⟩ w) (b : Fin B) (e : Fin E) (k : Fin C)

/-- On the outer axis the update `(b, e, k)` lands at `b`. -/
theorem midScatter_pos0 :
    (midScatterDims B N E C wf).start (ix3 b e k) idx (0 : Fin 3) + ((midScatterDims B N E C wf).window (ix3 b e k) (0 : Fin 3) : ℤ) = (b.val : ℤ) := by
  have hs : (midScatterDims B N E C wf).start (ix3 b e k) idx (0 : Fin 3) = 0 := by
    unfold ScatterDims.start
    rw [dif_neg (show (0 : Fin 3) ∉ ([1] : List (Fin 3)) from by decide)]
  have hw : (midScatterDims B N E C wf).window (ix3 b e k) (0 : Fin 3) = b.val := by
    have h0 : (0 : Fin 3) ∈ (midScatterDims B N E C wf).sKept := show (0 : Fin 3) ∈ ([0, 2] : List (Fin 3)) from by decide
    unfold ScatterDims.window
    rw [dif_pos h0]
    rfl
  rw [hs, hw, zero_add]

/-- On the middle axis the update `(b, e, k)` lands at the signed value of index word `e`. -/
theorem midScatter_pos1 :
    (midScatterDims B N E C wf).start (ix3 b e k) idx (1 : Fin 3) + ((midScatterDims B N E C wf).window (ix3 b e k) (1 : Fin 3) : ℤ) = (idx (ix2 e (0 : Fin 1))).toInt := by
  have hw : (midScatterDims B N E C wf).window (ix3 b e k) (1 : Fin 3) = 0 := by
    have h1 : (1 : Fin 3) ∉ (midScatterDims B N E C wf).sKept := show (1 : Fin 3) ∉ ([0, 2] : List (Fin 3)) from by decide
    unfold ScatterDims.window
    rw [dif_neg h1]
  rw [hw]
  unfold ScatterDims.start
  rw [dif_pos (show (1 : Fin 3) ∈ ([1] : List (Fin 3)) from by decide)]
  have hsi : (midScatterDims B N E C wf).siIdx (ix3 b e k) ⟨List.idxOf (1 : Fin 3) (midScatterDims B N E C wf).scatterDimsToOperandDims,
      List.idxOf_lt_length_iff.2 (show (1 : Fin 3) ∈ ([1] : List (Fin 3)) from by decide)⟩ = ix2 e (0 : Fin 1) := by
    funext c; refine Fin.ext ?_
    match c with
    | ⟨0, _⟩ => rfl
    | ⟨1, _⟩ => rfl
  rw [hsi]
  simp

/-- On the inner axis the update `(b, e, k)` lands at `k`. -/
theorem midScatter_pos2 :
    (midScatterDims B N E C wf).start (ix3 b e k) idx (2 : Fin 3) + ((midScatterDims B N E C wf).window (ix3 b e k) (2 : Fin 3) : ℤ) = (k.val : ℤ) := by
  have hs : (midScatterDims B N E C wf).start (ix3 b e k) idx (2 : Fin 3) = 0 := by
    unfold ScatterDims.start
    rw [dif_neg (show (2 : Fin 3) ∉ ([1] : List (Fin 3)) from by decide)]
  have hw : (midScatterDims B N E C wf).window (ix3 b e k) (2 : Fin 3) = k.val := by
    have h2 : (2 : Fin 3) ∈ (midScatterDims B N E C wf).sKept := show (2 : Fin 3) ∈ ([0, 2] : List (Fin 3)) from by decide
    unfold ScatterDims.window
    rw [dif_pos h2]
    rfl
  rw [hs, hw, zero_add]

end

section
variable {B N E C w : Nat} (wf : ScatterDims.WF ⟨3, ![B, N, C]⟩ ⟨2, ![E, 1]⟩ ⟨3, ![B, E, C]⟩ [0, 2] [1] [1] 1)
  (idx : IVec ⟨2, ![E, 1]⟩ w)

/-- The update `(b', e, k')` lands on `(b, i, k)` exactly when index word `e`, read signed, is `i`, and `b' = b`, `k' = k`. -/
theorem midScatter_resultIdx (b' : Fin B) (e : Fin E) (k' : Fin C) (b : Fin B) (i : Fin N) (k : Fin C) :
    (midScatterDims B N E C wf).resultIdx? (ix3 b' e k') idx = some (ix3 b i k)
      ↔ (idx (ix2 e (0 : Fin 1))).toInt = (i.val : ℤ) ∧ b' = b ∧ k' = k := by
  have p0 := midScatter_pos0 wf idx b' e k'
  have p1 := midScatter_pos1 wf idx b' e k'
  have p2 := midScatter_pos2 wf idx b' e k'
  unfold ScatterDims.resultIdx?
  constructor
  · intro h
    split at h
    · rename_i hb
      have hf := Option.some.inj h
      have h0 : ((midScatterDims B N E C wf).start (ix3 b' e k') idx (0 : Fin 3) + ((midScatterDims B N E C wf).window (ix3 b' e k') (0 : Fin 3) : ℤ)).toNat = b.val :=
        congrArg (fun f => (f (0 : Fin 3)).val) hf
      have h1 : ((midScatterDims B N E C wf).start (ix3 b' e k') idx (1 : Fin 3) + ((midScatterDims B N E C wf).window (ix3 b' e k') (1 : Fin 3) : ℤ)).toNat = i.val :=
        congrArg (fun f => (f (1 : Fin 3)).val) hf
      have h2 : ((midScatterDims B N E C wf).start (ix3 b' e k') idx (2 : Fin 3) + ((midScatterDims B N E C wf).window (ix3 b' e k') (2 : Fin 3) : ℤ)).toNat = k.val :=
        congrArg (fun f => (f (2 : Fin 3)).val) hf
      have b1 := (hb (1 : Fin 3)).1
      rw [p0] at h0
      rw [p1] at h1 b1
      rw [p2] at h2
      exact ⟨by omega, Fin.ext (by omega), Fin.ext (by omega)⟩
    · exact absurd h (by simp)
  · rintro ⟨h1, rfl, rfl⟩
    have hb : ∀ a : Fin 3, 0 ≤ (midScatterDims B N E C wf).start (ix3 b' e k') idx a + ((midScatterDims B N E C wf).window (ix3 b' e k') a : ℤ)
        ∧ (midScatterDims B N E C wf).start (ix3 b' e k') idx a + ((midScatterDims B N E C wf).window (ix3 b' e k') a : ℤ)
          < (((⟨3, ![B, N, C]⟩ : Shape).size a : ℕ) : ℤ) := by
      intro a
      match a with
      | ⟨0, _⟩ =>
        show 0 ≤ (midScatterDims B N E C wf).start (ix3 b' e k') idx (0 : Fin 3) + ((midScatterDims B N E C wf).window (ix3 b' e k') (0 : Fin 3) : ℤ)
          ∧ (midScatterDims B N E C wf).start (ix3 b' e k') idx (0 : Fin 3) + ((midScatterDims B N E C wf).window (ix3 b' e k') (0 : Fin 3) : ℤ) < ((B : ℕ) : ℤ)
        rw [p0]
        exact ⟨by omega, by exact_mod_cast b'.isLt⟩
      | ⟨1, _⟩ =>
        show 0 ≤ (midScatterDims B N E C wf).start (ix3 b' e k') idx (1 : Fin 3) + ((midScatterDims B N E C wf).window (ix3 b' e k') (1 : Fin 3) : ℤ)
          ∧ (midScatterDims B N E C wf).start (ix3 b' e k') idx (1 : Fin 3) + ((midScatterDims B N E C wf).window (ix3 b' e k') (1 : Fin 3) : ℤ) < ((N : ℕ) : ℤ)
        rw [p1, h1]
        exact ⟨by omega, by exact_mod_cast i.isLt⟩
      | ⟨2, _⟩ =>
        show 0 ≤ (midScatterDims B N E C wf).start (ix3 b' e k') idx (2 : Fin 3) + ((midScatterDims B N E C wf).window (ix3 b' e k') (2 : Fin 3) : ℤ)
          ∧ (midScatterDims B N E C wf).start (ix3 b' e k') idx (2 : Fin 3) + ((midScatterDims B N E C wf).window (ix3 b' e k') (2 : Fin 3) : ℤ) < ((C : ℕ) : ℤ)
        rw [p2]
        exact ⟨by omega, by exact_mod_cast k'.isLt⟩
    rw [dif_pos hb]
    congr 1
    funext a
    refine Fin.ext ?_
    match a with
    | ⟨0, _⟩ =>
      show ((midScatterDims B N E C wf).start (ix3 b' e k') idx (0 : Fin 3) + ((midScatterDims B N E C wf).window (ix3 b' e k') (0 : Fin 3) : ℤ)).toNat = b'.val
      rw [p0]; simp
    | ⟨1, _⟩ =>
      show ((midScatterDims B N E C wf).start (ix3 b' e k') idx (1 : Fin 3) + ((midScatterDims B N E C wf).window (ix3 b' e k') (1 : Fin 3) : ℤ)).toNat = i.val
      rw [p1, h1]; simp
    | ⟨2, _⟩ =>
      show ((midScatterDims B N E C wf).start (ix3 b' e k') idx (2 : Fin 3) + ((midScatterDims B N E C wf).window (ix3 b' e k') (2 : Fin 3) : ℤ)).toNat = k'.val
      rw [p2]; simp

end

/-- THE ACCUMULATING MIDDLE-AXIS SCATTER READ AT `(b, i, k)`, at the ideal values. -/
theorem scatterAdd_mid_apply {B N E C w : Nat}
    (wf : ScatterDims.WF ⟨3, ![B, N, C]⟩ ⟨2, ![E, 1]⟩ ⟨3, ![B, E, C]⟩ [0, 2] [1] [1] 1)
    (idx : IVec ⟨2, ![E, 1]⟩ w)
    (x : (⟨3, ![B, N, C]⟩ : Shape).Idx → EReal) (upd : (⟨3, ![B, E, C]⟩ : Shape).Idx → EReal)
    (b : Fin B) (i : Fin N) (k : Fin C) :
    Ideal.hostScatterAdd (midScatterDims B N E C wf) x idx upd (ix3 b i k)
      = x (ix3 b i k) + ∑ e ∈ Finset.univ.filter (fun e : Fin E => (idx (ix2 e (0 : Fin 1))).toInt = (i.val : ℤ)), upd (ix3 b e k) := by
  unfold Ideal.hostScatterAdd
  congr 1
  rw [Finset.sum_filter, sum_idx3]
  simp only [midScatter_resultIdx wf idx _ _ _ b i k]
  -- only the outer coordinate `b` and the inner coordinate `k` contribute
  rw [Finset.sum_eq_single b]
  · rw [Finset.sum_filter]
    refine Finset.sum_congr rfl fun e _ => ?_
    rw [Finset.sum_eq_single k]
    · by_cases h : (idx (ix2 e (0 : Fin 1))).toInt = (i.val : ℤ)
      · simp [h]
      · simp [h]
    · intro k' _ hk'
      rw [if_neg]
      rintro ⟨_, _, h⟩
      exact hk' h
    · intro h
      exact absurd (Finset.mem_univ _) h
  · intro b' _ hb'
    refine Finset.sum_eq_zero fun e _ => Finset.sum_eq_zero fun k' _ => ?_
    rw [if_neg]
    rintro ⟨_, h, _⟩
    exact hb' h
  · intro h
    exact absurd (Finset.mem_univ _) h

end Cert.Wtp

end
-- ==== Proof.RefRead.lean ====
/-
  The reference's result read at one entry `(b, o, k)`: the accumulating scatter along the order axis leaves zero plus
  the sum of the products landing on order `o`; each product reads its two feature rows and its weight row through
  a gather along the middle axis, whose start index is the wrapped index word clamped into the axis.
-/
import proofs.«424091_j5231270166733_3_alg».proof.Proof.Gen.ReferenceIdeal.Read
import proofs.«424091_j5231270166733_3_alg».proof.Proof.Spec
import proofs.«424091_j5231270166733_3_alg».proof.Proof.LibMidGatherScatter
import Idealize.ShloMosaic.PureOps.Ideal.Laws

noncomputable section

namespace Cert.Wtp

open Idealize.ShloMosaic Idealize.ShloMosaic.ValueIdx Cert.ReferenceIdeal Cert.ReferenceIdeal.Gen
open scoped BigOperators

/-! ## The printed dimension records are the middle-axis ones -/

theorem gatherX_eq : gather_S2048x16x128_S478x1_S2048x478x128_02_1_n_n_1_1_20481128 = midGatherDims 2048 16 478 128 Facts₀.gather_S2048x16x128_S478x1_S2048x478x128_02_1_n_n_1_1_20481128_wf := rfl
theorem gatherW_eq : gather_S1x34x128_S478x1_S1x478x128_02_1_n_n_1_1_11128 = midGatherDims 1 34 478 128 Facts₀.gather_S1x34x128_S478x1_S1x478x128_02_1_n_n_1_1_11128_wf := rfl
theorem scatter_eq : scatter_S2048x16x128_S478x1_S2048x478x128_02_1_1_1 = midScatterDims 2048 16 478 128 Facts₀.scatter_S2048x16x128_S478x1_S2048x478x128_02_1_1_1_wf := rfl

/-! ## The four index columns -/

/-- The index column of stage `v5` at `(e, 0)` is the word `e` wrapped once by `16`. -/
theorem word_v5 (x : (⟨S478, .i32⟩ : BufTy).Contents (Elt Ideal)) (e : Fin 478) :
    Read.val_main_v5 (F := Ideal) x (ix2 e (0 : Fin 1)) = wrap 16#32 (x (ix1 e)) := by
  have hi : Read.idx_main_v5 (ix2 e (0 : Fin 1)) = ix1 e :=
    funext fun a => Fin.ext (by match a with | ⟨0, _⟩ => rfl)
  rw [Read.val_main_v5_apply, hi, Read.val_main_v4_apply, Read.val_main_v1_apply, Read.val_main_v3_apply,
    Read.val_main_v0_apply, Read.val_main_v2_apply, Read.val_main_c_apply, Read.val_main_c_0_apply]
  rfl

/-- The index column of stage `v12` at `(e, 0)` is the word `e` wrapped once by `16`. -/
theorem word_v12 (x : (⟨S478, .i32⟩ : BufTy).Contents (Elt Ideal)) (e : Fin 478) :
    Read.val_main_v12 (F := Ideal) x (ix2 e (0 : Fin 1)) = wrap 16#32 (x (ix1 e)) := by
  have hi : Read.idx_main_v12 (ix2 e (0 : Fin 1)) = ix1 e :=
    funext fun a => Fin.ext (by match a with | ⟨0, _⟩ => rfl)
  rw [Read.val_main_v12_apply, hi, Read.val_main_v11_apply, Read.val_main_v8_apply, Read.val_main_v10_apply,
    Read.val_main_v7_apply, Read.val_main_v9_apply, Read.val_main_c_1_apply, Read.val_main_c_2_apply]
  rfl

/-- The index column of stage `v23` at `(e, 0)` is the word `e` wrapped once by `34`. -/
theorem word_v23 (x : (⟨S478, .i32⟩ : BufTy).Contents (Elt Ideal)) (e : Fin 478) :
    Read.val_main_v23 (F := Ideal) x (ix2 e (0 : Fin 1)) = wrap 34#32 (x (ix1 e)) := by
  have hi : Read.idx_main_v23 (ix2 e (0 : Fin 1)) = ix1 e :=
    funext fun a => Fin.ext (by match a with | ⟨0, _⟩ => rfl)
  rw [Read.val_main_v23_apply, hi, Read.val_main_v22_apply, Read.val_main_v19_apply, Read.val_main_v21_apply,
    Read.val_main_v18_apply, Read.val_main_v20_apply, Read.val_main_c_3_apply, Read.val_main_c_4_apply]
  rfl

/-- The index column of stage `v33` at `(e, 0)` is the word `e` wrapped once by `16`. -/
theorem word_v33 (x : (⟨S478, .i32⟩ : BufTy).Contents (Elt Ideal)) (e : Fin 478) :
    Read.val_main_v33 (F := Ideal) x (ix2 e (0 : Fin 1)) = wrap 16#32 (x (ix1 e)) := by
  have hi : Read.idx_main_v33 (ix2 e (0 : Fin 1)) = ix1 e :=
    funext fun a => Fin.ext (by match a with | ⟨0, _⟩ => rfl)
  rw [Read.val_main_v33_apply, hi, Read.val_main_v32_apply, Read.val_main_v29_apply, Read.val_main_v31_apply,
    Read.val_main_v28_apply, Read.val_main_v30_apply, Read.val_main_c_5_apply, Read.val_main_c_6_apply]
  rfl

/-! ## The three gathers -/

/-- The first feature array gathered: row `clamp (wrap i1 e)` of batch `b`. -/
theorem read_v6 (x0 : (⟨S2048x16x128, .f32⟩ : BufTy).Contents (Elt Ideal)) (x4 : (⟨S478, .i32⟩ : BufTy).Contents (Elt Ideal)) (b : Fin 2048) (e : Fin 478) (k : Fin 128) :
    Read.val_main_v6 (F := Ideal) x0 x4 (ix3 b e k)
      = x0 (ix3 b (clampTo 16 (by decide) (wrap 16#32 (x4 (ix1 e)))) k) := by
  unfold Read.val_main_v6
  rw [gatherX_eq]
  refine (gather_mid_apply (by decide) _ x0 _ b e k).trans ?_
  refine congrArg (fun i => x0 (ix3 b i k)) (Fin.ext ?_)
  show min (BitVec.toInt (Read.val_main_v5 (F := Ideal) x4 (ix2 e (0 : Fin 1)))).toNat (16 - 1)
    = min (BitVec.toInt (wrap 16#32 (x4 (ix1 e)))).toNat (16 - 1)
  rw [word_v5]

/-- The second feature array gathered likewise. -/
theorem read_v13 (x1 : (⟨S2048x16x128, .f32⟩ : BufTy).Contents (Elt Ideal)) (x5 : (⟨S478, .i32⟩ : BufTy).Contents (Elt Ideal)) (b : Fin 2048) (e : Fin 478) (k : Fin 128) :
    Read.val_main_v13 (F := Ideal) x1 x5 (ix3 b e k)
      = x1 (ix3 b (clampTo 16 (by decide) (wrap 16#32 (x5 (ix1 e)))) k) := by
  unfold Read.val_main_v13
  rw [gatherX_eq]
  refine (gather_mid_apply (by decide) _ x1 _ b e k).trans ?_
  refine congrArg (fun i => x1 (ix3 b i k)) (Fin.ext ?_)
  show min (BitVec.toInt (Read.val_main_v12 (F := Ideal) x5 (ix2 e (0 : Fin 1)))).toNat (16 - 1)
    = min (BitVec.toInt (wrap 16#32 (x5 (ix1 e)))).toNat (16 - 1)
  rw [word_v12]

/-- The weight gathered: row `clamp (wrap il e)` of its single batch. -/
theorem read_v24 (x2 : (⟨S1x34x128, .f32⟩ : BufTy).Contents (Elt Ideal)) (x6 : (⟨S478, .i32⟩ : BufTy).Contents (Elt Ideal)) (e : Fin 478) (k : Fin 128) :
    Read.val_main_v24 (F := Ideal) x2 x6 (ix3 (0 : Fin 1) e k)
      = x2 (ix3 (0 : Fin 1) (clampTo 34 (by decide) (wrap 34#32 (x6 (ix1 e)))) k) := by
  unfold Read.val_main_v24
  rw [gatherW_eq]
  refine (gather_mid_apply (by decide) _ x2 _ (0 : Fin 1) e k).trans ?_
  refine congrArg (fun i => x2 (ix3 (0 : Fin 1) i k)) (Fin.ext ?_)
  show min (BitVec.toInt (Read.val_main_v23 (F := Ideal) x6 (ix2 e (0 : Fin 1)))).toNat (34 - 1)
    = min (BitVec.toInt (wrap 34#32 (x6 (ix1 e)))).toNat (34 - 1)
  rw [word_v23]

/-! ## One update -/

/-- The update at `(b, e, k)` is the term `refTerm`. -/
theorem read_v26 (x0 x1 : (⟨S2048x16x128, .f32⟩ : BufTy).Contents (Elt Ideal)) (x2 : (⟨S1x34x128, .f32⟩ : BufTy).Contents (Elt Ideal)) (x3 : (⟨S478, .f32⟩ : BufTy).Contents (Elt Ideal)) (x4 x5 x6 : (⟨S478, .i32⟩ : BufTy).Contents (Elt Ideal))
    (b : Fin 2048) (e : Fin 478) (k : Fin 128) :
    Read.val_main_v26 (F := Ideal) x0 x1 x2 x3 x4 x5 x6 (ix3 b e k) = refTerm x0 x1 x2 x3 x4 x5 x6 b e k := by
  have h25 : Read.idx_main_v25 (ix3 b e k) = ix3 (0 : Fin 1) e k :=
    funext fun a => Fin.ext (by match a with | ⟨0, _⟩ => rfl | ⟨1, _⟩ => rfl | ⟨2, _⟩ => rfl)
  have h15 : Read.idx_main_v15 (Read.idx_main_v16 (ix3 b e k)) = ix1 e :=
    funext fun a => Fin.ext (by match a with | ⟨0, _⟩ => rfl)
  rw [Read.val_main_v26_apply, Read.val_main_v17_apply, Read.val_main_v14_apply, read_v6, read_v13,
    Read.val_main_v16_apply, Read.val_main_v15_apply, h15, Read.val_main_v25_apply, h25, read_v24]
  rfl

/-- The reference's last stage at `(b, o, k)` is the segment sum `refSum`. -/
theorem ref_apply (x0 x1 : (⟨S2048x16x128, .f32⟩ : BufTy).Contents (Elt Ideal)) (x2 : (⟨S1x34x128, .f32⟩ : BufTy).Contents (Elt Ideal))
    (x3 : (⟨S478, .f32⟩ : BufTy).Contents (Elt Ideal)) (x4 x5 x6 x7 : (⟨S478, .i32⟩ : BufTy).Contents (Elt Ideal))
    (b : Fin 2048) (o : Fin 16) (k : Fin 128) :
    Cert.ReferenceIdeal.Read.val_main_v34 (F := Ideal) x0 x1 x2 x3 x4 x5 x6 x7 (ix3 b o k)
      = refSum x0 x1 x2 x3 x4 x5 x6 x7 b o k := by
  unfold Read.val_main_v34 Host.scatterAdd
  rw [Ideal.hostScatterAdd_def, scatter_eq]
  refine (scatterAdd_mid_apply _ _ _ _ b o k).trans ?_
  unfold refSum
  have h0 : Read.val_main_v27 (F := Ideal) (ix3 b o k) = 0 := by
    rw [Read.val_main_v27_apply, Read.val_main_cst_apply]
    exact Idealize.ShloMosaic.Ideal.ofBits_zero_f32
  rw [h0]
  simp only [word_v33, read_v26]

end Cert.Wtp

end
-- ==== Proof.PreRanges.lean ====
/-
  What the precondition says of the three index columns that name an order: every word of `M1`, `M2` and `M_seg`,
  read as a signed integer, lies in `[0, 16)`.
-/
import proofs.«424091_j5231270166733_3_alg».proof.Pre_finite_inputs
import proofs.«424091_j5231270166733_3_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.Wtp

open Idealize.ShloMosaic Idealize.ShloMosaic.ValueIdx Cert.Pre_finite_inputs

/-- A column of `478` index words all in `[0, 16)` when read signed. -/
def InOrderRange (v : (⟨1, ![478]⟩ : Shape).Idx → BitVec 32) : Prop :=
  ∀ e : Fin 478, 0 ≤ (v (ix1 e)).toInt ∧ (v (ix1 e)).toInt < 16

/-- One column decoded. The precondition tests a column twice: "every word is at least the broadcast constant 0" and
    "every word is below the broadcast constant 16", each an `and`-reduction of the elementwise signed comparison
    down to a scalar. When both reductions are 1, every comparison they fold is 1, and a signed comparison that is 1
    is the inequality between the signed values. -/
private theorem range_of_alls [Cert.Pre_finite_inputs.Facts] (v : IVec S478 32)
    (hge : Host.reduce IntOp.andi (cmpi .sge v (broadcastInDim S478 ![] Facts.bcast_S_S478 (constantI S_ 32 0#32)))
        (constantI S_ 1 1#1) Facts.reducesTo_S478_S_d0 Facts.h_S_ ix0 = 1#1)
    (hlt : Host.reduce IntOp.andi (cmpi .slt v (broadcastInDim S478 ![] Facts.bcast_S_S478 (constantI S_ 32 16#32)))
        (constantI S_ 1 1#1) Facts.reducesTo_S478_S_d0 Facts.h_S_ ix0 = 1#1) : InOrderRange v := by
  intro e
  -- the scalar shape has exactly one index, so each reduction folds the whole column into it
  haveI : Subsingleton S_.Idx := ⟨fun a b => funext fun d => d.elim0⟩
  -- the broadcast of a constant scalar reads that constant at every index
  have h1 : IntOp.cmpi .sge (v (ix1 e)) 0#32 = 1#1 := Host.reduce_andi_all _ _ _ _ _ hge (ix1 e)
  have h2 : IntOp.cmpi .slt (v (ix1 e)) 16#32 = 1#1 := Host.reduce_andi_all _ _ _ _ _ hlt (ix1 e)
  have z : (0#32 : BitVec 32).toInt = 0 := by decide
  have s : (16#32 : BitVec 32).toInt = 16 := by decide
  have g1 := IntOp.cmpi_sge.1 h1
  have g2 := IntOp.cmpi_slt.1 h2
  rw [z] at g1
  rw [s] at g2
  exact ⟨g1, g2⟩

/-- The precondition all ones gives the three ranges. -/
theorem ranges_of_fn [Cert.Pre_finite_inputs.Facts] (a0 a1 : FVec Ideal S2048x16x128 .f32) (a2 : FVec Ideal S1x34x128 .f32)
    (a3 : FVec Ideal S478 .f32) (a4 a5 a6 a7 : IVec S478 32)
    (h : Cert.Pre_finite_inputs.fn (F := Ideal) a0 a1 a2 a3 a4 a5 a6 a7 = fun _ => 1#1) :
    InOrderRange a4 ∧ InOrderRange a5 ∧ InOrderRange a7 := by
  -- the result is a scalar; read it at its one index
  have h0 : Cert.Pre_finite_inputs.fn (F := Ideal) a0 a1 a2 a3 a4 a5 a6 a7 ix0 = 1#1 := congrFun h ix0
  -- the result is a left-nested conjunction of ten one-bit words: peel it from the outside in
  obtain ⟨h38, h7lt⟩ := IntOp.andi_eq_one.1 h0
  obtain ⟨h34, h7ge⟩ := IntOp.andi_eq_one.1 h38
  obtain ⟨h30, h5lt⟩ := IntOp.andi_eq_one.1 h34
  obtain ⟨h26, h5ge⟩ := IntOp.andi_eq_one.1 h30
  obtain ⟨h22, h4lt⟩ := IntOp.andi_eq_one.1 h26
  obtain ⟨h18, h4ge⟩ := IntOp.andi_eq_one.1 h22
  exact ⟨range_of_alls a4 h4ge h4lt, range_of_alls a5 h5ge h5lt, range_of_alls a7 h7ge h7lt⟩

end Cert.Wtp

end
-- ==== Proof.Bridge.lean ====
/-
  The tiled computation and the segment sum are one function when the three order columns are in range: a one-hot
  row times a feature column selects one entry, the padded terms are dropped by the output selector (order `16`
  matches no row), four partial sums of `128` terms are one sum of `512`, and the products agree by commutativity
  and associativity of the multiplication of extended reals.

  The steps, each a lemma below:
  * words: a non-negative word is not wrapped, a word in `[0, N)` is its own clamp, and a word in range equals the
    word of a position `m < 16` exactly when its signed value is `m`;
  * a one-hot row against a column of `16` values is the value at the selected row (`sum_sel`);
  * `512 = 4 · 128` regroups the four partial sums (`sum_512`, `tileAcc_eq`), and `512 = 478 + 34` drops the
    padding, whose terms vanish (`sum_512_pad`, `tileTerm_ge`);
  * column `q = 128·b + k` has `q / 128 = b`, `q % 128 = k` and `(q % 8192) % 128 = k` (`relay_at`, `wcg_at`);
  * a real term is the indicator of its output order times the reference term (`tileTerm_lt`), and the sum of
    indicator-weighted terms is the sum over the filtered set.
  Only the commutative-monoid-with-zero laws of the extended reals' multiplication are used; distributivity is not.
-/
import proofs.«424091_j5231270166733_3_alg».proof.Proof.Spec
import Mathlib.Data.EReal.Basic
import Mathlib.Logic.Equiv.Fin.Basic
import Mathlib.Data.Fintype.BigOperators
import Mathlib.Algebra.BigOperators.Fin
import Mathlib.Algebra.BigOperators.Group.Finset.Defs
import Mathlib.Algebra.BigOperators.Group.Finset.Basic

noncomputable section

namespace Cert.Wtp

open Idealize.ShloMosaic Idealize.ShloMosaic.ValueIdx
open scoped BigOperators

/-! The auxiliary lemmas live in their own namespace, so that their short names cannot meet a neighbouring module's. -/
namespace Bridge

/-! ## Words in range -/

/-- A non-negative word is not wrapped. -/
theorem wrap_of_nonneg (n v : BitVec 32) (h : 0 ≤ v.toInt) : wrap n v = v := by
  have hs : v.slt 0#32 = false := by
    simp [BitVec.slt]
    exact h
  simp [wrap, Scalar.select, IntOp.cmpi, hs]

/-- A word in `[0, N)` is its own clamp. -/
theorem clampTo_val (N : Nat) (hN : 0 < N) (v : BitVec 32) (h0 : 0 ≤ v.toInt) (h1 : v.toInt < (N : ℤ)) :
    (clampTo N hN v).val = v.toInt.toNat := by
  show min v.toInt.toNat (N - 1) = v.toInt.toNat
  omega

/-- A position below `16` as a word reads back as itself. -/
theorem toInt_ofNat_small (m : Nat) (hm : m < 16) : (BitVec.ofNat 32 m).toInt = (m : ℤ) := by
  rw [BitVec.toInt_ofNat', Int.bmod_def]
  omega

/-- A word is the word of a position below `16` exactly when its signed value is that position. -/
theorem eq_ofNat_iff (v : BitVec 32) (m : Nat) (hm : m < 16) :
    v = BitVec.ofNat 32 m ↔ v.toInt = (m : ℤ) := by
  constructor
  · intro h
    rw [h, toInt_ofNat_small m hm]
  · intro h
    apply BitVec.eq_of_toInt_eq
    rw [toInt_ofNat_small m hm, h]

/-! ## Sums -/

/-- A one-hot row against a column selects the entry at the (wrapped, clamped) word. -/
theorem sum_sel (v : BitVec 32) (h0 : 0 ≤ v.toInt) (h1 : v.toInt < 16) (f : Fin 16 → EReal) :
    ∑ m : Fin 16, sel v m.val * f m = f (clampTo 16 (by decide) (wrap 16#32 v)) := by
  rw [wrap_of_nonneg _ _ h0]
  have hc : (clampTo 16 (by decide) v).val = v.toInt.toNat := clampTo_val 16 (by decide) v h0 h1
  rw [Finset.sum_eq_single (clampTo 16 (by decide) v)]
  · have hv : v = BitVec.ofNat 32 (clampTo 16 (by decide) v).val :=
      (eq_ofNat_iff v _ (clampTo 16 (by decide) v).isLt).2 (by rw [hc]; omega)
    unfold sel
    rw [if_pos hv, one_mul]
  · intro m _ hm
    have hv : ¬ v = BitVec.ofNat 32 m.val := fun h => hm (Fin.ext (by
      have := (eq_ofNat_iff v _ m.isLt).1 h
      rw [hc]; omega))
    unfold sel
    rw [if_neg hv, zero_mul]
  · intro h
    exact absurd (Finset.mem_univ _) h

/-- `512 = 4 · 128`: a sum of `512` terms is four sums of `128`. -/
theorem sum_512 (f : Fin 512 → EReal) :
    ∑ n : Fin 512, f n
      = ∑ r : Fin 4, ∑ j : Fin 128, f ⟨128 * r.val + j.val, by have := r.isLt; have := j.isLt; omega⟩ := by
  rw [← Fintype.sum_prod_type']
  refine (Fintype.sum_equiv (finProdFinEquiv (m := 4) (n := 128)) _ f (fun x => ?_)).symm
  exact congrArg f (Fin.ext (by simp [finProdFinEquiv]; omega))

/-- `512 = 478 + 34`: when the last `34` terms vanish the sum is over the first `478`. -/
theorem sum_512_pad (f : Fin 512 → EReal) (hz : ∀ n : Fin 512, 478 ≤ n.val → f n = 0) :
    ∑ n : Fin 512, f n = ∑ e : Fin 478, f ⟨e.val, by have := e.isLt; omega⟩ := by
  have h := Fin.sum_univ_add (a := 478) (b := 34) (f : Fin (478 + 34) → EReal)
  refine h.trans ?_
  rw [Finset.sum_eq_zero (s := Finset.univ) (f := fun i : Fin 34 => f (Fin.natAdd 478 i)) (fun i _ => hz _ (by simp)), add_zero]
  rfl

/-! ## The layout at column `128·b + k` -/

/-- The four partial sums added to zero in order are zero plus the sum of all `512` terms. -/
theorem tileAcc_eq (O1 O2 : SR.Idx → EReal) (OS : SC.Idx → EReal) (X1 X2 : Fin 16 → EReal) (T : Fin 512 → EReal) (o : Fin 16) :
    tileAcc O1 O2 OS X1 X2 T o = 0 + ∑ n : Fin 512, tileTerm O1 O2 OS X1 X2 T o n := by
  rw [sum_512 (fun n => tileTerm O1 O2 OS X1 X2 T o n), Fin.sum_univ_four]
  unfold tileAcc tileChunk
  simp only [zero_add]

/-- Below `478` the padded column of words is the column. -/
theorem padW_lt (fill : BitVec 32) (v : SN.Idx → BitVec 32) (e : Fin 478) (h : e.val < 512) :
    padW fill v ⟨e.val, h⟩ = v (ix1 e) := by
  unfold padW
  rw [dif_pos e.isLt]

/-- From `478` on the padded column of words is the fill. -/
theorem padW_ge (fill : BitVec 32) (v : SN.Idx → BitVec 32) (n : Fin 512) (h : 478 ≤ n.val) :
    padW fill v n = fill := by
  unfold padW
  rw [dif_neg (by omega)]

/-- Below `478` the padded column of values is the column. -/
theorem padE_lt (v : SN.Idx → EReal) (e : Fin 478) (h : e.val < 512) :
    padE v ⟨e.val, h⟩ = v (ix1 e) := by
  unfold padE
  rw [dif_pos e.isLt]

/-- The relaid array at column `128·b + k` is the array at batch `b`, channel `k`. -/
theorem relay_at (x : SX.Idx → EReal) (b : Fin 2048) (m : Fin 16) (k : Fin 128) (h : b.val * 128 + k.val < 262144) :
    relay x (ix2 m (⟨b.val * 128 + k.val, h⟩ : Fin 262144)) = x (ix3 b m k) := by
  have hk : k.val < 128 := k.isLt
  have e1 : (b.val * 128 + k.val) / 128 = b.val := by omega
  have e2 : (b.val * 128 + k.val) % 128 = k.val := by omega
  have hb : (⟨(b.val * 128 + k.val) / 128, by omega⟩ : Fin 2048) = b := Fin.ext e1
  have hk' : (⟨(b.val * 128 + k.val) % 128, Nat.mod_lt _ (by decide)⟩ : Fin 128) = k := Fin.ext e2
  show x (ix3 (⟨(b.val * 128 + k.val) / 128, _⟩ : Fin 2048) (⟨m.val, _⟩ : Fin 16) (⟨(b.val * 128 + k.val) % 128, _⟩ : Fin 128)) = _
  rw [hb, hk']

/-! ## The selectors and the table at one term -/

/-- A one-hot row of an in-range column of row indices against the relaid feature column reads the feature array
    at the wrapped, clamped row. -/
theorem row_read (x : SX.Idx → EReal) (v : SN.Idx → BitVec 32)
    (hv : ∀ e : Fin 478, 0 ≤ (v (ix1 e)).toInt ∧ (v (ix1 e)).toInt < 16)
    (b : Fin 2048) (k : Fin 128) (h : b.val * 128 + k.val < 262144) (e : Fin 478) (he : e.val < 512) :
    ∑ m : Fin 16, onehotRows v (ix2 (⟨e.val, he⟩ : Fin 512) m) * relay x (ix2 m (⟨b.val * 128 + k.val, h⟩ : Fin 262144))
      = x (ix3 b (clampTo 16 (by decide) (wrap 16#32 (v (ix1 e)))) k) := by
  have hterm : ∀ m : Fin 16,
      onehotRows v (ix2 (⟨e.val, he⟩ : Fin 512) m) * relay x (ix2 m (⟨b.val * 128 + k.val, h⟩ : Fin 262144))
        = sel (v (ix1 e)) m.val * x (ix3 b m k) := by
    intro m
    rw [relay_at]
    show sel (padW 0#32 v ⟨e.val, he⟩) m.val * _ = _
    rw [padW_lt]
  rw [Finset.sum_congr rfl (fun m _ => hterm m)]
  exact sum_sel (v (ix1 e)) (hv e).1 (hv e).2 (fun m => x (ix3 b m k))

/-- In the padding the output selector is zero: order `16` matches no row. -/
theorem col_pad (v : SN.Idx → BitVec 32) (o : Fin 16) (n : Fin 512) (h : 478 ≤ n.val) :
    onehotCols v (ix2 o n) = 0 := by
  show sel (padW 16#32 v n) o.val = 0
  rw [padW_ge _ _ _ h]
  unfold sel
  rw [if_neg]
  intro h16
  have h16a := (eq_ofNat_iff 16#32 o.val o.isLt).1 h16
  have h16b : (16#32 : BitVec 32).toInt = 16 := by decide
  have ho : o.val < 16 := o.isLt
  omega

/-- On a real term the output selector is the indicator of "the wrapped output order is `o`". -/
theorem col_read (v : SN.Idx → BitVec 32)
    (hv : ∀ e : Fin 478, 0 ≤ (v (ix1 e)).toInt ∧ (v (ix1 e)).toInt < 16)
    (o : Fin 16) (e : Fin 478) (he : e.val < 512) :
    onehotCols v (ix2 o (⟨e.val, he⟩ : Fin 512))
      = if (wrap 16#32 (v (ix1 e))).toInt = (o.val : ℤ) then 1 else 0 := by
  show sel (padW 16#32 v ⟨e.val, he⟩) o.val = _
  rw [padW_lt, wrap_of_nonneg _ _ (hv e).1]
  unfold sel
  by_cases hc : (v (ix1 e)).toInt = (o.val : ℤ)
  · rw [if_pos hc, if_pos ((eq_ofNat_iff _ _ o.isLt).2 hc)]
  · rw [if_neg hc, if_neg (fun h => hc ((eq_ofNat_iff _ _ o.isLt).1 h))]

/-- The table at a real term and column `128·b + k` (reduced to its tile) is `weight · cg` at channel `k`. -/
theorem wcg_at (w : SW.Idx → EReal) (cg : SN.Idx → EReal) (il : SN.Idx → BitVec 32)
    (b : Fin 2048) (k : Fin 128) (e : Fin 478) (he : e.val < 512) :
    wcgTable w cg il (ix2 (⟨e.val, he⟩ : Fin 512)
        (⟨(b.val * 128 + k.val) % 8192, Nat.mod_lt _ (by decide)⟩ : Fin 8192))
      = w (ix3 (0 : Fin 1) (clampTo 34 (by decide) (wrap 34#32 (il (ix1 e)))) k) * cg (ix1 e) := by
  have hk : k.val < 128 := k.isLt
  have e2 : ((b.val * 128 + k.val) % 8192) % 128 = k.val := by omega
  have hk' : (⟨((b.val * 128 + k.val) % 8192) % 128, Nat.mod_lt _ (by decide)⟩ : Fin 128) = k := Fin.ext e2
  show w (ix3 (0 : Fin 1) (clampTo 34 (by decide) (wrap 34#32 (padW 0#32 il ⟨e.val, he⟩)))
      (⟨((b.val * 128 + k.val) % 8192) % 128, Nat.mod_lt _ (by decide)⟩ : Fin 128)) * padE cg ⟨e.val, he⟩ = _
  rw [padW_lt, padE_lt, hk']

/-! ## One term, and the whole sum -/

/-- A real term of the tile is the reference term when its output order is `o`, and zero otherwise. -/
theorem tileTerm_lt (x1 x2 : SX.Idx → EReal) (w : SW.Idx → EReal) (cg : SN.Idx → EReal) (i1 i2 il is : SN.Idx → BitVec 32)
    (h1 : ∀ e : Fin 478, 0 ≤ (i1 (ix1 e)).toInt ∧ (i1 (ix1 e)).toInt < 16)
    (h2 : ∀ e : Fin 478, 0 ≤ (i2 (ix1 e)).toInt ∧ (i2 (ix1 e)).toInt < 16)
    (hs : ∀ e : Fin 478, 0 ≤ (is (ix1 e)).toInt ∧ (is (ix1 e)).toInt < 16)
    (b : Fin 2048) (o : Fin 16) (k : Fin 128) (hq : b.val * 128 + k.val < 262144) (e : Fin 478) (he : e.val < 512) :
    tileTerm (onehotRows i1) (onehotRows i2) (onehotCols is)
        (fun m => relay x1 (ix2 m (⟨b.val * 128 + k.val, hq⟩ : Fin 262144)))
        (fun m => relay x2 (ix2 m (⟨b.val * 128 + k.val, hq⟩ : Fin 262144)))
        (fun n => wcgTable w cg il (ix2 n (⟨(b.val * 128 + k.val) % 8192, Nat.mod_lt _ (by decide)⟩ : Fin 8192)))
        o (⟨e.val, he⟩ : Fin 512)
      = if (wrap 16#32 (is (ix1 e))).toInt = (o.val : ℤ) then refTerm x1 x2 w cg i1 i2 il b e k else 0 := by
  show onehotCols is (ix2 o (⟨e.val, he⟩ : Fin 512))
      * (((∑ m : Fin 16, onehotRows i1 (ix2 (⟨e.val, he⟩ : Fin 512) m)
              * relay x1 (ix2 m (⟨b.val * 128 + k.val, hq⟩ : Fin 262144)))
          * (∑ m : Fin 16, onehotRows i2 (ix2 (⟨e.val, he⟩ : Fin 512) m)
              * relay x2 (ix2 m (⟨b.val * 128 + k.val, hq⟩ : Fin 262144))))
        * wcgTable w cg il (ix2 (⟨e.val, he⟩ : Fin 512)
            (⟨(b.val * 128 + k.val) % 8192, Nat.mod_lt _ (by decide)⟩ : Fin 8192))) = _
  rw [row_read x1 i1 h1, row_read x2 i2 h2, col_read is hs, wcg_at]
  unfold refTerm
  split_ifs
  · rw [one_mul]
    ac_rfl
  · rw [zero_mul]

/-- A padded term of the tile is zero. -/
theorem tileTerm_ge (O1 O2 : SR.Idx → EReal) (v : SN.Idx → BitVec 32) (X1 X2 : Fin 16 → EReal) (T : Fin 512 → EReal)
    (o : Fin 16) (n : Fin 512) (h : 478 ≤ n.val) :
    tileTerm O1 O2 (onehotCols v) X1 X2 T o n = 0 := by
  unfold tileTerm
  rw [col_pad v o n h, zero_mul]

end Bridge

open Bridge in
/-- With the order columns in range the two spellings agree at every entry. -/
theorem tileSum_eq_refSum (x1 x2 : SX.Idx → EReal) (w : SW.Idx → EReal) (cg : SN.Idx → EReal) (i1 i2 il is : SN.Idx → BitVec 32)
    (h1 : ∀ e : Fin 478, 0 ≤ (i1 (ix1 e)).toInt ∧ (i1 (ix1 e)).toInt < 16)
    (h2 : ∀ e : Fin 478, 0 ≤ (i2 (ix1 e)).toInt ∧ (i2 (ix1 e)).toInt < 16)
    (hs : ∀ e : Fin 478, 0 ≤ (is (ix1 e)).toInt ∧ (is (ix1 e)).toInt < 16)
    (b : Fin 2048) (o : Fin 16) (k : Fin 128) :
    tileSum x1 x2 w cg i1 i2 il is (ix3 b o k) = refSum x1 x2 w cg i1 i2 il is b o k := by
  have hq : b.val * 128 + k.val < 262144 := by
    have hb : b.val < 2048 := b.isLt
    have hk : k.val < 128 := k.isLt
    omega
  have ha : tileSum x1 x2 w cg i1 i2 il is (ix3 b o k)
      = tileAcc (onehotRows i1) (onehotRows i2) (onehotCols is)
          (fun m => relay x1 (ix2 m (⟨b.val * 128 + k.val, hq⟩ : Fin 262144)))
          (fun m => relay x2 (ix2 m (⟨b.val * 128 + k.val, hq⟩ : Fin 262144)))
          (fun n => wcgTable w cg il (ix2 n (⟨(b.val * 128 + k.val) % 8192, Nat.mod_lt _ (by decide)⟩ : Fin 8192)))
          o := rfl
  rw [ha, tileAcc_eq, sum_512_pad _ (fun n hn => tileTerm_ge _ _ is _ _ _ o n hn)]
  unfold refSum
  rw [Finset.sum_filter]
  exact congrArg (fun s => 0 + s)
    (Finset.sum_congr rfl (fun e _ => tileTerm_lt x1 x2 w cg i1 i2 il is h1 h2 hs b o k hq e _))

end Cert.Wtp

end
-- ==== Proof.HostTables.lean ====
/-
  The arrays the kernel's first five windows read, as the region finds them, as functions of the program's arguments:
  the two feature arrays relaid to `[16, 262144]`, the two one-hot row tables and the one-hot output-order table.
-/
import proofs.«424091_j5231270166733_3_alg».proof.Proof.Gen.KernelIdeal.Frame
import proofs.«424091_j5231270166733_3_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.Lib.IdealHost

noncomputable section

namespace Cert.Wtp.Host

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Wtp

variable (m : (ℓ : Loc nD τ sig) → Buf (Elt Ideal) ℓ)

/-! ## The layout and table operations read at an entry -/

/-- The transpose `[1, 0, 2]` followed by the cast to `[16, 2048·128]` is the relaying of a feature array: entry
    `(p, q)` of the result has row-major position `(p·2048 + q / 128)·128 + q % 128` in the transposed array, which is
    entry `(q / 128, p, q % 128)` of the operand. -/
theorem relay_eq (x : SX.Idx → EReal) (h1 : SX.Transposes [1, 0, 2] S16x2048x128) (h2 : S16x2048x128.ShapeCasts SQ) :
    shapeCast SQ (transpose S16x2048x128 [1, 0, 2] x h1) h2 = relay x := by
  funext i
  obtain ⟨p, q, rfl⟩ : ∃ (p : Fin 16) (q : Fin 262144), i = ix2 p q := ⟨i 0, i 1, eq_ix2 i⟩
  have hq : q.val < 262144 := q.isLt
  refine (shapeCast_apply _ h2 (ix2 p q)
    (ix3 p (⟨q.val / 128, by omega⟩ : Fin 2048) (⟨q.val % 128, Nat.mod_lt _ (by decide)⟩ : Fin 128)) ?_).trans ?_
  · rw [Shape.rowMajor_val_three, Shape.rowMajor_val_two]
    show (p.val * 2048 + q.val / 128) * 128 + q.val % 128 = p.val * 262144 + q.val
    omega
  · exact transpose_apply [1, 0, 2] x h1 _ (ix3 (⟨q.val / 128, by omega⟩ : Fin 2048) p (⟨q.val % 128, Nat.mod_lt _ (by decide)⟩ : Fin 128))
      fun b => match b with | ⟨0, _⟩ => rfl | ⟨1, _⟩ => rfl | ⟨2, _⟩ => rfl

/-- A column of 478 entries padded at the high end to 512 reads the entry below 478 and the fill from there on. -/
theorem pad512_apply {α : Type} (v : S478.Idx → α) (z : S_.Idx → α) (hp : S478.Pads (![0] : Fin 1 → Nat) ![34] ![0] S512)
    (hS : 0 < S_.numel) (n : Fin 512) :
    pad S512 ![0] ![34] ![0] v z hp hS (ix1 n) = if h : n.val < 478 then v (ix1 ⟨n.val, h⟩) else z ix0 := by
  by_cases h : n.val < 478
  · rw [dif_pos h]
    exact pad_apply_of_inside _ _ _ v z hp hS (ix1 n) (ix1 ⟨n.val, h⟩) fun a => match a with
      | ⟨0, _⟩ => by show n.val = 0 + n.val * (0 + 1); omega
  · rw [dif_neg h]
    refine (pad_apply_of_not_inside _ _ _ v z hp hS (ix1 n) (0 : Fin 1) ?_).trans (congrArg z (eq_ix0 _))
    show ¬(0 ≤ n.val ∧ (n.val - 0) % (0 + 1) = 0 ∧ (n.val - 0) / (0 + 1) < 478)
    omega

/-- The word of a one-bit comparison for equality, made a number, is the selector. -/
theorem uitofp_cmpi_eq (a : BitVec 32) (k : Nat) :
    (FloatOps.uitofp (F := Ideal) .bf16 (IntOp.cmpi .eq a (BitVec.ofNat 32 k)) : EReal) = sel a k := by
  unfold sel
  show (((BitVec.ofBool (a == BitVec.ofNat 32 k)).toNat : ℝ) : EReal) = _
  by_cases h : a = BitVec.ofNat 32 k
  · rw [if_pos h, beq_iff_eq.mpr h]; simp
  · rw [if_neg h, (beq_eq_false_iff_ne).mpr h]; simp

/-- A column made a one-column matrix and spread over the columns reads the column's entry of the row. -/
theorem bcast_col_apply {α : Type} {a b : ℕ} (x : (⟨1, ![a]⟩ : Shape).Idx → α)
    (h0 : (⟨1, ![a]⟩ : Shape).BroadcastsInDim ⟨2, ![a, 1]⟩ (![0] : Fin 1 → Fin 2))
    (h1 : (⟨2, ![a, 1]⟩ : Shape).BroadcastsInDim ⟨2, ![a, b]⟩ (![0, 1] : Fin 2 → Fin 2)) (n : Fin a) (k : Fin b) :
    broadcastInDim ⟨2, ![a, b]⟩ ![0, 1] h1 (broadcastInDim ⟨2, ![a, 1]⟩ ![0] h0 x) (ix2 n k) = x (ix1 n) := by
  have hn := n.isLt
  refine (broadcastInDim_apply _ h1 _ (ix2 n k) (ix2 n (0 : Fin 1)) fun c => ?_).trans
    (broadcastInDim_apply _ h0 x (ix2 n (0 : Fin 1)) (ix1 n) fun c => ?_)
  · match c with
    | ⟨0, _⟩ => show n.val = if a = 1 then 0 else n.val; split <;> omega
    | ⟨1, _⟩ => show 0 = if 1 = 1 then 0 else k.val; rfl
  · match c with
    | ⟨0, _⟩ => show n.val = if a = 1 then 0 else n.val; split <;> omega

/-- A row made a one-row matrix and spread over the rows reads the row's entry of the column. -/
theorem bcast_row_apply {α : Type} {a b : ℕ} (y : (⟨1, ![b]⟩ : Shape).Idx → α)
    (h0 : (⟨1, ![b]⟩ : Shape).BroadcastsInDim ⟨2, ![1, b]⟩ (![1] : Fin 1 → Fin 2))
    (h1 : (⟨2, ![1, b]⟩ : Shape).BroadcastsInDim ⟨2, ![a, b]⟩ (![0, 1] : Fin 2 → Fin 2)) (n : Fin a) (k : Fin b) :
    broadcastInDim ⟨2, ![a, b]⟩ ![0, 1] h1 (broadcastInDim ⟨2, ![1, b]⟩ ![1] h0 y) (ix2 n k) = y (ix1 k) := by
  have hk := k.isLt
  refine (broadcastInDim_apply _ h1 _ (ix2 n k) (ix2 (0 : Fin 1) k) fun c => ?_).trans
    (broadcastInDim_apply _ h0 y (ix2 (0 : Fin 1) k) (ix1 k) fun c => ?_)
  · match c with
    | ⟨0, _⟩ => show 0 = if 1 = 1 then 0 else n.val; rfl
    | ⟨1, _⟩ => show k.val = if b = 1 then 0 else k.val; split <;> omega
  · match c with
    | ⟨0, _⟩ => show k.val = if b = 1 then 0 else k.val; split <;> omega

/-- The operations of a one-hot row table (pad, two broadcasts each side, comparison with the column positions,
    conversion) compute the one-hot rows of the column of indices. -/
theorem onehotRows_eq (v : S478.Idx → BitVec 32) (z : S_.Idx → BitVec 32) (hz : z ix0 = 0#32)
    (hp : S478.Pads (![0] : Fin 1 → Nat) ![34] ![0] S512) (hS : 0 < S_.numel)
    (hb0 : S512.BroadcastsInDim S512x1 (![0] : Fin 1 → Fin S512x1.rank))
    (hb1 : S512x1.BroadcastsInDim S512x16 (![0, 1] : Fin 2 → Fin S512x16.rank))
    (hb2 : S16.BroadcastsInDim S1x16 (![1] : Fin 1 → Fin S1x16.rank))
    (hb3 : S1x16.BroadcastsInDim S512x16 (![0, 1] : Fin 2 → Fin S512x16.rank)) :
    (uitofp (F := Ideal) .bf16 (cmpi .eq
      (broadcastInDim S512x16 ![0, 1] hb1 (broadcastInDim S512x1 ![0] hb0 (pad S512 ![0] ![34] ![0] v z hp hS)))
      (broadcastInDim S512x16 ![0, 1] hb3 (broadcastInDim S1x16 ![1] hb2 (iotaInDim S16 32 0)))) : SR.Idx → EReal)
      = onehotRows v := by
  funext i
  obtain ⟨n, k, rfl⟩ : ∃ (n : Fin 512) (k : Fin 16), i = ix2 n k := ⟨i 0, i 1, eq_ix2 i⟩
  have hA : broadcastInDim S512x16 ![0, 1] hb1 (broadcastInDim S512x1 ![0] hb0 (pad S512 ![0] ![34] ![0] v z hp hS)) (ix2 n k)
      = padW 0#32 v n := by
    refine (bcast_col_apply _ hb0 hb1 n k).trans ((pad512_apply v z hp hS n).trans ?_)
    unfold padW; rw [hz]
  have hB : broadcastInDim S512x16 ![0, 1] hb3 (broadcastInDim S1x16 ![1] hb2 (iotaInDim S16 32 0)) (ix2 n k)
      = BitVec.ofNat 32 k.val := bcast_row_apply _ hb2 hb3 n k
  exact (congrArg₂ (fun a b => FloatOps.uitofp (F := Ideal) .bf16 (IntOp.cmpi .eq a b)) hA hB).trans (uitofp_cmpi_eq _ _)

/-- The same for the table of output orders, laid out the other way round and padded with a word no row matches. -/
theorem onehotCols_eq (v : S478.Idx → BitVec 32) (z : S_.Idx → BitVec 32) (hz : z ix0 = 16#32)
    (hp : S478.Pads (![0] : Fin 1 → Nat) ![34] ![0] S512) (hS : 0 < S_.numel)
    (hb0 : S512.BroadcastsInDim S1x512 (![1] : Fin 1 → Fin S1x512.rank))
    (hb1 : S1x512.BroadcastsInDim S16x512 (![0, 1] : Fin 2 → Fin S16x512.rank))
    (hb2 : S16.BroadcastsInDim S16x1 (![0] : Fin 1 → Fin S16x1.rank))
    (hb3 : S16x1.BroadcastsInDim S16x512 (![0, 1] : Fin 2 → Fin S16x512.rank)) :
    (uitofp (F := Ideal) .bf16 (cmpi .eq
      (broadcastInDim S16x512 ![0, 1] hb1 (broadcastInDim S1x512 ![1] hb0 (pad S512 ![0] ![34] ![0] v z hp hS)))
      (broadcastInDim S16x512 ![0, 1] hb3 (broadcastInDim S16x1 ![0] hb2 (iotaInDim S16 32 0)))) : SC.Idx → EReal)
      = onehotCols v := by
  funext i
  obtain ⟨k, n, rfl⟩ : ∃ (k : Fin 16) (n : Fin 512), i = ix2 k n := ⟨i 0, i 1, eq_ix2 i⟩
  have hA : broadcastInDim S16x512 ![0, 1] hb1 (broadcastInDim S1x512 ![1] hb0 (pad S512 ![0] ![34] ![0] v z hp hS)) (ix2 k n)
      = padW 16#32 v n := by
    refine (bcast_row_apply _ hb0 hb1 k n).trans ((pad512_apply v z hp hS n).trans ?_)
    unfold padW; rw [hz]
  have hB : broadcastInDim S16x512 ![0, 1] hb3 (broadcastInDim S16x1 ![0] hb2 (iotaInDim S16 32 0)) (ix2 k n)
      = BitVec.ofNat 32 k.val := bcast_col_apply _ hb2 hb3 k n
  exact (congrArg₂ (fun a b => FloatOps.uitofp (F := Ideal) .bf16 (IntOp.cmpi .eq a b)) hA hB).trans (uitofp_cmpi_eq _ _)

/-! ## The five arrays

Each array is first opened to the composed term of the host operations that wrote it (the fold of the operations before
the region, rewritten operation by operation), then read by the lemma above for that term. -/

/-- Window 0's array: the first feature array relaid. -/
theorem V_x1 (c : Dev nD) : (V m c main_v40 : SQ.Idx → EReal) = relay (m ((c : Thread nD τ).loc main_arg0)) := by
  refine Eq.trans ?_ (relay_eq (m ((c : Thread nD τ).loc main_arg0)) Facts₀.transposes_S2048x16x128_S16x2048x128_1_0_2
    Facts₀.shapeCasts_S16x2048x128_S16x262144)
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
  after_results
  rfl
/-- Window 1's array: the second feature array relaid. -/
theorem V_x2 (c : Dev nD) : (V m c main_v42 : SQ.Idx → EReal) = relay (m ((c : Thread nD τ).loc main_arg1)) := by
  refine Eq.trans ?_ (relay_eq (m ((c : Thread nD τ).loc main_arg1)) Facts₀.transposes_S2048x16x128_S16x2048x128_1_0_2
    Facts₀.shapeCasts_S16x2048x128_S16x262144)
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
  after_results
  rfl
/-- Window 2's array: the one-hot rows of `M1`. -/
theorem V_oh1 (c : Dev nD) : (V m c main_v11 : SR.Idx → EReal) = onehotRows (m ((c : Thread nD τ).loc main_arg4)) := by
  refine Eq.trans ?_ (onehotRows_eq (m ((c : Thread nD τ).loc main_arg4)) (constantI S_ 32 0#32) rfl Facts₀.pads_S478_S512_0340 Facts₀.h_S_
    Facts₀.bcast_S512_S512x1_0 Facts₀.bcast_S512x1_S512x16_0_1 Facts₀.bcast_S16_S1x16_1 Facts₀.bcast_S1x16_S512x16_0_1)
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
  after_results
  rfl
/-- Window 3's array: the one-hot rows of `M2`. -/
theorem V_oh2 (c : Dev nD) : (V m c main_v17 : SR.Idx → EReal) = onehotRows (m ((c : Thread nD τ).loc main_arg5)) := by
  refine Eq.trans ?_ (onehotRows_eq (m ((c : Thread nD τ).loc main_arg5)) (constantI S_ 32 0#32) rfl Facts₀.pads_S478_S512_0340 Facts₀.h_S_
    Facts₀.bcast_S512_S512x1_0 Facts₀.bcast_S512x1_S512x16_0_1 Facts₀.bcast_S16_S1x16_1 Facts₀.bcast_S1x16_S512x16_0_1)
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
  after_results
  rfl
/-- Window 4's array: the one-hot columns of `M_seg`. -/
theorem V_ohs (c : Dev nD) : (V m c main_v24 : SC.Idx → EReal) = onehotCols (m ((c : Thread nD τ).loc main_arg7)) := by
  refine Eq.trans ?_ (onehotCols_eq (m ((c : Thread nD τ).loc main_arg7)) (constantI S_ 32 16#32) rfl Facts₀.pads_S478_S512_0340 Facts₀.h_S_
    Facts₀.bcast_S512_S1x512_1 Facts₀.bcast_S1x512_S16x512_0_1 Facts₀.bcast_S16_S16x1_0 Facts₀.bcast_S16x1_S16x512_0_1)
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
  after_results
  rfl

end Cert.Wtp.Host

end
-- ==== Proof.LibRowGatherScatter.lean ====
/-
  Rows of a table gathered by, and scattered-and-added at, a column of integer indices, read at one element.

  The table has `N` rows of `C` entries; the indices are an `E × 1` column of machine integers.

  * The gather of rows (what `table[idx]` lowers to: one collapsed axis, one offset axis, the start index naming a
    row) reads, at `(e, k)`, the table's entry `k` of the row the index `e` names — the index read as a signed
    integer and clamped into `[0, N - 1]`.
  * The accumulating scatter of rows (what `segment_sum` / `.at[idx].add` lowers to), at the ideal values, leaves at
    `(i, k)` the operand's entry plus the sum of the updates' entries `k` over the rows `e` whose index, read as a
    signed integer and NOT clamped, is `i`; an index that names no row contributes nowhere.
-/
import Idealize.ShloMosaic.PureOps.Ideal
import Idealize.ShloMosaic.Lib.ValueIdx

noncomputable section

namespace Cert.Gcn

open Idealize.ShloMosaic Idealize.ShloMosaic.ValueIdx
open scoped BigOperators

/-! ## The gather of rows -/

/-- The dimension numbers of a row gather: operand `N × C`, start indices `E × 1`, result `E × C`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, k)`: entry `k` of the row that index `e` names, read signed and clamped into
    `[0, N - 1]`. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k)
      = x (ix2 ⟨min (idx (ix2 e (0 : Fin 1))).toInt.toNat (N - 1), by omega⟩ k) := by
  unfold Host.gather
  congr 1
  funext a
  refine Fin.ext ?_
  show (rowGatherDims N E C wf).start (ix2 e k) idx a + (rowGatherDims N E C wf).batchCoord (ix2 e k) a
      + (rowGatherDims N E C wf).offCoord (ix2 e k) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ (rowGatherDims N E C wf).startIndexMap from List.mem_singleton.mpr rfl)]
    have hsi : (rowGatherDims N E C wf).siIdx (ix2 e k) ⟨List.idxOf (⟨0, by decide⟩ : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e k) idx (1 : Fin 2) + 0
        + (rowGatherDims N E C wf).offCoord (ix2 e k) (1 : Fin 2) = k.val
    have hs : (rowGatherDims N E C wf).start (ix2 e k) idx (1 : Fin 2) = 0 := by
      unfold GatherDims.start
      rw [dif_neg (show (1 : Fin 2) ∉ ([0] : List (Fin 2)) from by decide)]
    have hm : (1 : Fin 2) ∈ (rowGatherDims N E C wf).sKept :=
      (GatherDims.mem_sKept _ _).mpr ⟨show (1 : Fin 2) ∉ ([0] : List (Fin 2)) from by decide, List.not_mem_nil⟩
    rw [hs]
    unfold GatherDims.offCoord
    rw [dif_pos hm]
    simp only [Nat.zero_add]
    rfl

/-! ## The accumulating scatter of rows -/

/-- The dimension numbers of a row scatter: operand `N × C`, scatter indices `E × 1`, updates `E × C`. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section
variable {N E C w : Nat} (wf : ScatterDims.WF ⟨2, ![N, C]⟩ ⟨2, ![E, 1]⟩ ⟨2, ![E, C]⟩ [1] [0] [0] 1)
  (idx : IVec ⟨2, ![E, 1]⟩ w) (e : Fin E) (k : Fin C)

/-- On the row axis the update `(e, k)` lands at the signed value of index `e`. -/
theorem rowScatter_pos0 :
    (rowScatterDims N E C wf).start (ix2 e k) idx (0 : Fin 2) + ((rowScatterDims N E C wf).window (ix2 e k) (0 : Fin 2) : ℤ)
      = (idx (ix2 e (0 : Fin 1))).toInt := by
  have hw : (rowScatterDims N E C wf).window (ix2 e k) (0 : Fin 2) = 0 := by
    have h0 : (0 : Fin 2) ∉ (rowScatterDims N E C wf).sKept := show (0 : Fin 2) ∉ ([1] : List (Fin 2)) from by decide
    unfold ScatterDims.window
    rw [dif_neg h0]
  rw [hw]
  unfold ScatterDims.start
  rw [dif_pos (show (0 : Fin 2) ∈ ([0] : List (Fin 2)) from by decide)]
  have hsi : (rowScatterDims N E C wf).siIdx (ix2 e k) ⟨List.idxOf (0 : Fin 2) (rowScatterDims N E C wf).scatterDimsToOperandDims,
      List.idxOf_lt_length_iff.2 (show (0 : Fin 2) ∈ ([0] : List (Fin 2)) from by decide)⟩ = ix2 e (0 : Fin 1) := by
    funext b; refine Fin.ext ?_
    match b with
    | ⟨0, _⟩ => rfl
    | ⟨1, _⟩ => rfl
  rw [hsi]
  simp

/-- On the column axis the update `(e, k)` lands at `k`. -/
theorem rowScatter_pos1 :
    (rowScatterDims N E C wf).start (ix2 e k) idx (1 : Fin 2) + ((rowScatterDims N E C wf).window (ix2 e k) (1 : Fin 2) : ℤ)
      = (k.val : ℤ) := by
  have hs : (rowScatterDims N E C wf).start (ix2 e k) idx (1 : Fin 2) = 0 := by
    unfold ScatterDims.start
    rw [dif_neg (show (1 : Fin 2) ∉ ([0] : List (Fin 2)) from by decide)]
  have hw : (rowScatterDims N E C wf).window (ix2 e k) (1 : Fin 2) = k.val := by
    have h1 : (1 : Fin 2) ∈ (rowScatterDims N E C wf).sKept := show (1 : Fin 2) ∈ ([1] : List (Fin 2)) from by decide
    unfold ScatterDims.window
    rw [dif_pos h1]
    rfl
  rw [hs, hw, zero_add]

end

section
variable {N E C w : Nat} (wf : ScatterDims.WF ⟨2, ![N, C]⟩ ⟨2, ![E, 1]⟩ ⟨2, ![E, C]⟩ [1] [0] [0] 1)
  (idx : IVec ⟨2, ![E, 1]⟩ w)

/-- The update `(e, b)` lands on `(i, k)` exactly when index `e`, read signed, is `i` and `b = k`. -/
theorem rowScatter_resultIdx (e : Fin E) (b : Fin C) (i : Fin N) (k : Fin C) :
    (rowScatterDims N E C wf).resultIdx? (ix2 e b) idx = some (ix2 i k)
      ↔ (idx (ix2 e (0 : Fin 1))).toInt = (i.val : ℤ) ∧ b = k := by
  have p0 := rowScatter_pos0 wf idx e b
  have p1 := rowScatter_pos1 wf idx e b
  unfold ScatterDims.resultIdx?
  constructor
  · intro h
    split at h
    · rename_i hb
      have hf := Option.some.inj h
      have h0 : ((rowScatterDims N E C wf).start (ix2 e b) idx (0 : Fin 2)
          + ((rowScatterDims N E C wf).window (ix2 e b) (0 : Fin 2) : ℤ)).toNat = i.val :=
        congrArg (fun f => (f (0 : Fin 2)).val) hf
      have h1 : ((rowScatterDims N E C wf).start (ix2 e b) idx (1 : Fin 2)
          + ((rowScatterDims N E C wf).window (ix2 e b) (1 : Fin 2) : ℤ)).toNat = k.val :=
        congrArg (fun f => (f (1 : Fin 2)).val) hf
      have b0 := (hb (0 : Fin 2)).1
      rw [p0] at h0 b0
      rw [p1] at h1
      exact ⟨by omega, Fin.ext (by omega)⟩
    · exact absurd h (by simp)
  · rintro ⟨h0, rfl⟩
    have hb : ∀ a : Fin 2, 0 ≤ (rowScatterDims N E C wf).start (ix2 e b) idx a + ((rowScatterDims N E C wf).window (ix2 e b) a : ℤ)
        ∧ (rowScatterDims N E C wf).start (ix2 e b) idx a + ((rowScatterDims N E C wf).window (ix2 e b) a : ℤ)
          < (((⟨2, ![N, C]⟩ : Shape).size a : ℕ) : ℤ) := by
      intro a
      match a with
      | ⟨0, _⟩ =>
        show 0 ≤ (rowScatterDims N E C wf).start (ix2 e b) idx (0 : Fin 2) + ((rowScatterDims N E C wf).window (ix2 e b) (0 : Fin 2) : ℤ)
          ∧ (rowScatterDims N E C wf).start (ix2 e b) idx (0 : Fin 2) + ((rowScatterDims N E C wf).window (ix2 e b) (0 : Fin 2) : ℤ) < ((N : ℕ) : ℤ)
        rw [p0, h0]
        exact ⟨by omega, by exact_mod_cast i.isLt⟩
      | ⟨1, _⟩ =>
        show 0 ≤ (rowScatterDims N E C wf).start (ix2 e b) idx (1 : Fin 2) + ((rowScatterDims N E C wf).window (ix2 e b) (1 : Fin 2) : ℤ)
          ∧ (rowScatterDims N E C wf).start (ix2 e b) idx (1 : Fin 2) + ((rowScatterDims N E C wf).window (ix2 e b) (1 : Fin 2) : ℤ) < ((C : ℕ) : ℤ)
        rw [p1]
        exact ⟨by omega, by exact_mod_cast b.isLt⟩
    rw [dif_pos hb]
    congr 1
    funext a
    refine Fin.ext ?_
    match a with
    | ⟨0, _⟩ =>
      show ((rowScatterDims N E C wf).start (ix2 e b) idx (0 : Fin 2) + ((rowScatterDims N E C wf).window (ix2 e b) (0 : Fin 2) : ℤ)).toNat = i.val
      rw [p0, h0]; simp
    | ⟨1, _⟩ =>
      show ((rowScatterDims N E C wf).start (ix2 e b) idx (1 : Fin 2) + ((rowScatterDims N E C wf).window (ix2 e b) (1 : Fin 2) : ℤ)).toNat = b.val
      rw [p1]; simp

/-- THE ACCUMULATING ROW SCATTER READ AT `(i, k)`, at the ideal values: the operand's entry plus the sum of the
    updates' entries `k` over the rows `e` whose index, read signed, is `i`. -/
theorem scatterAdd_rows_apply (x : (⟨2, ![N, C]⟩ : Shape).Idx → EReal) (upd : (⟨2, ![E, C]⟩ : Shape).Idx → EReal)
    (i : Fin N) (k : Fin C) :
    Ideal.hostScatterAdd (rowScatterDims N E C wf) x idx upd (ix2 i k)
      = x (ix2 i k) + ∑ e ∈ Finset.univ.filter (fun e : Fin E => (idx (ix2 e (0 : Fin 1))).toInt = (i.val : ℤ)), upd (ix2 e k) := by
  unfold Ideal.hostScatterAdd
  congr 1
  rw [Finset.sum_filter, sum_idx2, Finset.sum_filter]
  refine Finset.sum_congr rfl fun e _ => ?_
  simp only [rowScatter_resultIdx wf idx e _ i k]
  by_cases h : (idx (ix2 e (0 : Fin 1))).toInt = (i.val : ℤ)
  · simp [h]
  · simp [h]

end

end Cert.Gcn

end
-- ==== Proof.HostWcg.lean ====
/-
  The sixth array the kernel's windows read, as the region finds it, as a function of the program's arguments:
  the `weight · cg` table (the weight row each padded term names, times the padded coefficient) repeated over the
  `64` batch slots of a tile.
-/
import proofs.«424091_j5231270166733_3_alg».proof.Proof.Gen.KernelIdeal.Frame
import proofs.«424091_j5231270166733_3_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.Lib.IdealHost
import proofs.«424091_j5231270166733_3_alg».proof.Proof.LibRowGatherScatter

noncomputable section

namespace Cert.Wtp.Host

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Wtp

variable (m : (ℓ : Loc nD τ sig) → Buf (Elt Ideal) ℓ)

/-! ## The layout operations of this table read at an index -/

/-- A column of `478` entries padded to `512`, read at `n`: the operand below `478`, the fill from there on. -/
theorem wcg_pad_apply {α : Type} (v : S478.Idx → α) (z : S_.Idx → α)
    (hp : S478.Pads (![0] : Fin 1 → Nat) ![34] ![0] S512) (hS : 0 < S_.numel) (n : Fin 512) :
    pad S512 ![0] ![34] ![0] v z hp hS (ix1 n) = if h : n.val < 478 then v (ix1 ⟨n.val, h⟩) else z ix0 := by
  by_cases h : n.val < 478
  · rw [dif_pos h]
    exact pad_apply_of_inside _ _ _ v z hp hS (ix1 n) (ix1 ⟨n.val, h⟩) (fun a => by
      match a with
      | ⟨0, _⟩ => show n.val = 0 + n.val * (0 + 1); omega)
  · rw [dif_neg h]
    refine (pad_apply_of_not_inside _ _ _ v z hp hS (ix1 n) (0 : Fin 1) ?_).trans (congrArg z (eq_ix0 _))
    show ¬(0 ≤ n.val ∧ (n.val - 0) % (0 + 1) = 0 ∧ (n.val - 0) / (0 + 1) < 478)
    omega

/-- A column `[512]` laid as `[512, 1]`, read at `(n, 0)`. -/
theorem wcg_col_apply {α : Type} (x : S512.Idx → α)
    (h0 : S512.BroadcastsInDim S512x1 (![0] : Fin 1 → Fin S512x1.rank)) (n : Fin 512) :
    broadcastInDim S512x1 ![0] h0 x (ix2 n (0 : Fin 1)) = x (ix1 n) :=
  broadcastInDim_apply _ h0 x _ (ix1 n) fun a => by
    match a with
    | ⟨0, _⟩ => show n.val = if (512 : Nat) = 1 then 0 else n.val; rw [if_neg (by decide)]

/-- A `[512, 1]` column spread over `128` channels, read at `(n, k)`. -/
theorem wcg_spread_apply {α : Type} (x : S512x1.Idx → α)
    (h1 : S512x1.BroadcastsInDim S512x128 (![0, 1] : Fin 2 → Fin S512x128.rank)) (n : Fin 512) (k : Fin 128) :
    broadcastInDim S512x128 ![0, 1] h1 x (ix2 n k) = x (ix2 n (0 : Fin 1)) :=
  broadcastInDim_apply _ h1 x _ (ix2 n (0 : Fin 1)) fun a => by
    match a with
    | ⟨0, _⟩ => show n.val = if (512 : Nat) = 1 then 0 else n.val; rw [if_neg (by decide)]
    | ⟨1, _⟩ => show 0 = if (1 : Nat) = 1 then 0 else k.val; rw [if_pos rfl]

/-- `[512, 128]` relaid as `[1, 512, 1, 128]`, read at `(0, n, 0, k)`. -/
theorem wcg_cast4_apply {α : Type} (x : S512x128.Idx → α) (h : S512x128.ShapeCasts S1x512x1x128)
    (n : Fin 512) (k : Fin 128) :
    shapeCast S1x512x1x128 x h (ix4 (0 : Fin 1) n (0 : Fin 1) k) = x (ix2 n k) :=
  shapeCast_apply x h _ _ (by
    rw [Shape.rowMajor_val_two, Shape.rowMajor_val_four]
    show n.val * 128 + k.val = ((0 * 512 + n.val) * 1 + 0) * 128 + k.val
    omega)

/-- The unit slot axis spread over the `64` batch slots: slot `s` reads slot `0`. -/
theorem wcg_slots_apply {α : Type} (x : S1x512x1x128.Idx → α)
    (h : S1x512x1x128.BroadcastsInDim S1x512x64x128 (![0, 1, 2, 3] : Fin 4 → Fin S1x512x64x128.rank))
    (n : Fin 512) (s : Fin 64) (k : Fin 128) :
    broadcastInDim S1x512x64x128 ![0, 1, 2, 3] h x (ix4 (0 : Fin 1) n s k) = x (ix4 (0 : Fin 1) n (0 : Fin 1) k) :=
  broadcastInDim_apply _ h x _ (ix4 (0 : Fin 1) n (0 : Fin 1) k) fun a => by
    match a with
    | ⟨0, _⟩ => show 0 = if (1 : Nat) = 1 then 0 else 0; rw [if_pos rfl]
    | ⟨1, _⟩ => show n.val = if (512 : Nat) = 1 then 0 else n.val; rw [if_neg (by decide)]
    | ⟨2, _⟩ => show 0 = if (1 : Nat) = 1 then 0 else s.val; rw [if_pos rfl]
    | ⟨3, _⟩ => show k.val = if (128 : Nat) = 1 then 0 else k.val; rw [if_neg (by decide)]

/-- `[1, 512, 64, 128]` relaid as `[512, 8192]`: column `q` is slot `q / 128`, channel `q % 128`. -/
theorem wcg_cast2_apply {α : Type} (x : S1x512x64x128.Idx → α) (h : S1x512x64x128.ShapeCasts S512x8192)
    (n : Fin 512) (q : Fin 8192) :
    shapeCast S512x8192 x h (ix2 n q)
      = x (ix4 (0 : Fin 1) n (⟨q.val / 128, by have := q.isLt; omega⟩ : Fin 64) (⟨q.val % 128, Nat.mod_lt _ (by decide)⟩ : Fin 128)) :=
  shapeCast_apply x h _ _ (by
    rw [Shape.rowMajor_val_four, Shape.rowMajor_val_two]
    show ((0 * 512 + n.val) * 64 + q.val / 128) * 128 + q.val % 128 = n.val * 8192 + q.val
    have := q.isLt
    omega)

/-- The printed dimension record of the weight-row gather is the row gather's. -/
theorem wcg_gatherDims_eq : gather_S34x128_S512x1_S512x128_1_0_n_n_0_1_1128 = Cert.Gcn.rowGatherDims 34 512 128 Facts₀.gather_S34x128_S512x1_S512x128_1_0_n_n_0_1_1128_wf := rfl

/-- The weight-row gather read at `(n, k)`: channel `k` of the row the word `n` names, clamped into the `34` rows. -/
theorem wcg_gather_apply (x : S34x128.Idx → EReal) (idx : IVec S512x1 32) (n : Fin 512) (k : Fin 128) :
    Host.gather gather_S34x128_S512x1_S512x128_1_0_n_n_0_1_1128 x idx (ix2 n k) = x (ix2 (clampTo 34 (by decide) (idx (ix2 n (0 : Fin 1)))) k) := by
  rw [wcg_gatherDims_eq]
  exact Cert.Gcn.gather_rows_apply (by decide) _ x idx n k

/-! ## The table as the program composes it -/

/-- The coefficients padded to `512` with the integer zero read as a float. -/
def wcgCoef (cg : SN.Idx → EReal) : S512.Idx → EReal :=
  pad S512 ![0] ![34] ![0] cg (sitofp (F := Ideal) .f32 (constantI S_ 32 0#32)) Facts₀.pads_S478_S512_0340 Facts₀.h_S_

/-- The weight-row words padded to `512` with the zero word. -/
def wcgWords (il : SN.Idx → BitVec 32) : S512.Idx → BitVec 32 :=
  pad S512 ![0] ![34] ![0] il (constantI S_ 32 0#32) Facts₀.pads_S478_S512_0340 Facts₀.h_S_

/-- The padded words wrapped once by `34`. -/
def wcgWrapped (il : SN.Idx → BitVec 32) : S512.Idx → BitVec 32 :=
  select (cmpi .slt (wcgWords il) (broadcastInDim S512 ![] Facts₀.bcast_S_S512 (constantI S_ 32 0#32)))
    (addi (wcgWords il) (broadcastInDim S512 ![] Facts₀.bcast_S_S512 (constantI S_ 32 34#32))) (wcgWords il)

/-- The `512 × 128` product: the gathered weight rows times the coefficient column. -/
def wcgProd (w : SW.Idx → EReal) (cg : SN.Idx → EReal) (il : SN.Idx → BitVec 32) : S512x128.Idx → EReal :=
  mulf (F := Ideal) (φ := .f32)
    (Host.gather gather_S34x128_S512x1_S512x128_1_0_n_n_0_1_1128 (shapeCast S34x128 w Facts₀.shapeCasts_S1x34x128_S34x128)
      (broadcastInDim S512x1 ![0] Facts₀.bcast_S512_S512x1_0 (wcgWrapped il)))
    (broadcastInDim S512x128 ![0, 1] Facts₀.bcast_S512x1_S512x128_0_1
      (broadcastInDim S512x1 ![0] Facts₀.bcast_S512_S512x1_0 (wcgCoef cg)))

/-- The product repeated over the `64` batch slots and relaid as `[512, 8192]`. -/
def wcgTerm (w : SW.Idx → EReal) (cg : SN.Idx → EReal) (il : SN.Idx → BitVec 32) : ST.Idx → EReal :=
  shapeCast S512x8192
    (broadcastInDim S1x512x64x128 ![0, 1, 2, 3] Facts₀.bcast_S1x512x1x128_S1x512x64x128_0_1_2_3
      (shapeCast S1x512x1x128 (wcgProd w cg il) Facts₀.shapeCasts_S512x128_S1x512x1x128))
    Facts₀.shapeCasts_S1x512x64x128_S512x8192

/-- The padded words are `padW` with the zero word. -/
theorem wcgWords_apply (il : SN.Idx → BitVec 32) (n : Fin 512) : wcgWords il (ix1 n) = padW 0#32 il n := by
  unfold wcgWords padW
  rw [wcg_pad_apply]
  rfl

/-- The wrapped padded words. -/
theorem wcgWrapped_apply (il : SN.Idx → BitVec 32) (n : Fin 512) :
    wcgWrapped il (ix1 n) = wrap 34#32 (padW 0#32 il n) := by
  unfold wcgWrapped
  show Scalar.select (IntOp.cmpi .slt (wcgWords il (ix1 n)) (broadcastInDim S512 ![] Facts₀.bcast_S_S512 (constantI S_ 32 0#32) (ix1 n)))
      (IntOp.addi (wcgWords il (ix1 n)) (broadcastInDim S512 ![] Facts₀.bcast_S_S512 (constantI S_ 32 34#32) (ix1 n)))
      (wcgWords il (ix1 n)) = _
  rw [broadcastInDim_scalar_apply, broadcastInDim_scalar_apply, wcgWords_apply]
  rfl

/-- The padded coefficients are `padE`: the integer zero read as a float is zero. -/
theorem wcgCoef_apply (cg : SN.Idx → EReal) (n : Fin 512) : wcgCoef cg (ix1 n) = padE cg n := by
  unfold wcgCoef padE
  rw [wcg_pad_apply]
  by_cases h : n.val < 478
  · rw [dif_pos h, dif_pos h]
  · rw [dif_neg h, dif_neg h]
    show (((0#32 : BitVec 32).toInt : ℝ) : EReal) = 0
    simp

/-- The composed table is `wcgTable`, entry by entry. -/
theorem wcgTerm_eq (w : SW.Idx → EReal) (cg : SN.Idx → EReal) (il : SN.Idx → BitVec 32) :
    wcgTerm w cg il = wcgTable w cg il := by
  funext i
  obtain ⟨n, q, rfl⟩ : ∃ (n : Fin 512) (q : Fin 8192), i = ix2 n q := ⟨i 0, i 1, eq_ix2 i⟩
  unfold wcgTerm
  rw [wcg_cast2_apply, wcg_slots_apply, wcg_cast4_apply]
  unfold wcgProd
  rw [mulf_apply, wcg_gather_apply, wcg_col_apply, wcgWrapped_apply, shapeCast_1ab_ab_apply,
    wcg_spread_apply, wcg_col_apply, wcgCoef_apply]
  rfl

/-- Window 5's array: the repeated `weight · cg` table. -/
theorem V_wcg (c : Dev nD) : (V m c main_v38 : ST.Idx → EReal)
    = wcgTable (m ((c : Thread nD τ).loc main_arg2)) (m ((c : Thread nD τ).loc main_arg3)) (m ((c : Thread nD τ).loc main_arg6)) := by
  have e : (V m c main_v38 : ST.Idx → EReal)
      = wcgTerm (m ((c : Thread nD τ).loc main_arg2)) (m ((c : Thread nD τ).loc main_arg3)) (m ((c : Thread nD τ).loc main_arg6)) := by
    dsimp only [Gen.V, Gen.V0]
    simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
    after_results_simp
    rfl
  exact e.trans (wcgTerm_eq _ _ _)

end Cert.Wtp.Host

end
-- ==== Proof.Tile.lean ====
/-
  What one grid point's body leaves in the output's staging buffer, as a function of the six blocks it reads:
  the four partial sums of `tileOut`.
-/
import proofs.«424091_j5231270166733_3_alg».proof.Proof.Gen.KernelIdeal.Frame
import proofs.«424091_j5231270166733_3_alg».proof.Proof.Spec
import Idealize.ShloMosaic.Lib.Pipeline.Value
import Idealize.ShloMosaic.Lib.ValueIdx
import Idealize.ShloMosaic.PureOps.Ideal.Laws

noncomputable section

namespace Cert.Wtp.Tile

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Wtp

/-! ## The two matrix products at an entry

The gather products contract the `16` orders: `[128, 16] · [16, 8192]`; the segment product contracts the `128` terms
of a partial sum: `[16, 128] · [128, 8192]`. Both accumulate into a zero splat, so an entry is the plain sum. -/

theorem lhs_gather_0 (i : S128x8192.Idx) (q : dot_S128x16_S16x8192_S128x8192_1_0_0_1_n_n.contr.Idx) :
    (dot_S128x16_S16x8192_S128x8192_1_0_0_1_n_n.lhsIdx i q 0).val = (i 0).val := by
  unfold DotDims.lhsIdx
  rw [dif_neg (show ¬(0 : Fin S128x16.rank) ∈ dot_S128x16_S16x8192_S128x8192_1_0_0_1_n_n.lhsBatch by decide), dif_pos (show (0 : Fin S128x16.rank) ∈ dot_S128x16_S16x8192_S128x8192_1_0_0_1_n_n.lhsNonContracting by decide)]
  rfl
theorem lhs_gather_1 (i : S128x8192.Idx) (q : dot_S128x16_S16x8192_S128x8192_1_0_0_1_n_n.contr.Idx) :
    (dot_S128x16_S16x8192_S128x8192_1_0_0_1_n_n.lhsIdx i q 1).val = (q ⟨0, by decide⟩).val :=
  dot_S128x16_S16x8192_S128x8192_1_0_0_1_n_n.lhsIdx_val_of_single rfl i q
theorem rhs_gather_0 (i : S128x8192.Idx) (q : dot_S128x16_S16x8192_S128x8192_1_0_0_1_n_n.contr.Idx) :
    (dot_S128x16_S16x8192_S128x8192_1_0_0_1_n_n.rhsIdx i q 0).val = (q ⟨0, by decide⟩).val :=
  dot_S128x16_S16x8192_S128x8192_1_0_0_1_n_n.rhsIdx_val_of_single rfl i q
theorem rhs_gather_1 (i : S128x8192.Idx) (q : dot_S128x16_S16x8192_S128x8192_1_0_0_1_n_n.contr.Idx) :
    (dot_S128x16_S16x8192_S128x8192_1_0_0_1_n_n.rhsIdx i q 1).val = (i 1).val := by
  unfold DotDims.rhsIdx
  rw [dif_neg (show ¬(1 : Fin S16x8192.rank) ∈ dot_S128x16_S16x8192_S128x8192_1_0_0_1_n_n.rhsBatch by decide), dif_pos (show (1 : Fin S16x8192.rank) ∈ dot_S128x16_S16x8192_S128x8192_1_0_0_1_n_n.rhsNonContracting by decide)]
  rfl

/-- A selector block times a feature tile, at term `j` and column `q`: the sum over the orders. -/
theorem gatherProduct_apply (A : FVec Ideal S128x16 .bf16) (X : FVec Ideal S16x8192 .bf16) (j : Fin 128) (q : Fin 8192) :
    matmul dot_S128x16_S16x8192_S128x8192_1_0_0_1_n_n none A X (constant S128x8192 .f32 0x00000000#32) (ix2 j q)
      = ∑ m : Fin 16, A (ix2 j m) * X (ix2 m q) := by
  show FloatOps.matmul dot_S128x16_S16x8192_S128x8192_1_0_0_1_n_n none A X (constant S128x8192 .f32 0x00000000#32) (ix2 j q) = _
  rw [Ideal.matmul_constant_zero_apply, ← Equiv.sum_comp (ValueIdx.contrEquiv1 dot_S128x16_S16x8192_S128x8192_1_0_0_1_n_n 16 rfl rfl).symm]
  refine Finset.sum_congr rfl fun k _ => ?_
  have hk := ValueIdx.contrEquiv1_symm_val dot_S128x16_S16x8192_S128x8192_1_0_0_1_n_n 16 rfl rfl k
  have el : dot_S128x16_S16x8192_S128x8192_1_0_0_1_n_n.lhsIdx (ix2 j q) ((ValueIdx.contrEquiv1 dot_S128x16_S16x8192_S128x8192_1_0_0_1_n_n 16 rfl rfl).symm k) = ix2 j k := funext fun a => Fin.ext (by
    match a with
    | ⟨0, _⟩ => exact lhs_gather_0 _ _
    | ⟨1, _⟩ => exact (lhs_gather_1 _ _).trans hk)
  have er : dot_S128x16_S16x8192_S128x8192_1_0_0_1_n_n.rhsIdx (ix2 j q) ((ValueIdx.contrEquiv1 dot_S128x16_S16x8192_S128x8192_1_0_0_1_n_n 16 rfl rfl).symm k) = ix2 k q := funext fun a => Fin.ext (by
    match a with
    | ⟨0, _⟩ => exact (rhs_gather_0 _ _).trans hk
    | ⟨1, _⟩ => exact rhs_gather_1 _ _)
  rw [el, er]

theorem lhs_segment_0 (i : S16x8192.Idx) (q : dot_S16x128_S128x8192_S16x8192_1_0_0_1_n_n.contr.Idx) :
    (dot_S16x128_S128x8192_S16x8192_1_0_0_1_n_n.lhsIdx i q 0).val = (i 0).val := by
  unfold DotDims.lhsIdx
  rw [dif_neg (show ¬(0 : Fin S16x128.rank) ∈ dot_S16x128_S128x8192_S16x8192_1_0_0_1_n_n.lhsBatch by decide), dif_pos (show (0 : Fin S16x128.rank) ∈ dot_S16x128_S128x8192_S16x8192_1_0_0_1_n_n.lhsNonContracting by decide)]
  rfl
theorem lhs_segment_1 (i : S16x8192.Idx) (q : dot_S16x128_S128x8192_S16x8192_1_0_0_1_n_n.contr.Idx) :
    (dot_S16x128_S128x8192_S16x8192_1_0_0_1_n_n.lhsIdx i q 1).val = (q ⟨0, by decide⟩).val :=
  dot_S16x128_S128x8192_S16x8192_1_0_0_1_n_n.lhsIdx_val_of_single rfl i q
theorem rhs_segment_0 (i : S16x8192.Idx) (q : dot_S16x128_S128x8192_S16x8192_1_0_0_1_n_n.contr.Idx) :
    (dot_S16x128_S128x8192_S16x8192_1_0_0_1_n_n.rhsIdx i q 0).val = (q ⟨0, by decide⟩).val :=
  dot_S16x128_S128x8192_S16x8192_1_0_0_1_n_n.rhsIdx_val_of_single rfl i q
theorem rhs_segment_1 (i : S16x8192.Idx) (q : dot_S16x128_S128x8192_S16x8192_1_0_0_1_n_n.contr.Idx) :
    (dot_S16x128_S128x8192_S16x8192_1_0_0_1_n_n.rhsIdx i q 1).val = (i 1).val := by
  unfold DotDims.rhsIdx
  rw [dif_neg (show ¬(1 : Fin S128x8192.rank) ∈ dot_S16x128_S128x8192_S16x8192_1_0_0_1_n_n.rhsBatch by decide), dif_pos (show (1 : Fin S128x8192.rank) ∈ dot_S16x128_S128x8192_S16x8192_1_0_0_1_n_n.rhsNonContracting by decide)]
  rfl

/-- An output-selector block times a block of products, at order `p` and column `q`: the sum over the block's terms. -/
theorem segmentProduct_apply (A : FVec Ideal S16x128 .bf16) (G : FVec Ideal S128x8192 .bf16) (p : Fin 16) (q : Fin 8192) :
    matmul dot_S16x128_S128x8192_S16x8192_1_0_0_1_n_n none A G (constant S16x8192 .f32 0x00000000#32) (ix2 p q)
      = ∑ j : Fin 128, A (ix2 p j) * G (ix2 j q) := by
  show FloatOps.matmul dot_S16x128_S128x8192_S16x8192_1_0_0_1_n_n none A G (constant S16x8192 .f32 0x00000000#32) (ix2 p q) = _
  rw [Ideal.matmul_constant_zero_apply, ← Equiv.sum_comp (ValueIdx.contrEquiv1 dot_S16x128_S128x8192_S16x8192_1_0_0_1_n_n 128 rfl rfl).symm]
  refine Finset.sum_congr rfl fun k _ => ?_
  have hk := ValueIdx.contrEquiv1_symm_val dot_S16x128_S128x8192_S16x8192_1_0_0_1_n_n 128 rfl rfl k
  have el : dot_S16x128_S128x8192_S16x8192_1_0_0_1_n_n.lhsIdx (ix2 p q) ((ValueIdx.contrEquiv1 dot_S16x128_S128x8192_S16x8192_1_0_0_1_n_n 128 rfl rfl).symm k) = ix2 p k := funext fun a => Fin.ext (by
    match a with
    | ⟨0, _⟩ => exact lhs_segment_0 _ _
    | ⟨1, _⟩ => exact (lhs_segment_1 _ _).trans hk)
  have er : dot_S16x128_S128x8192_S16x8192_1_0_0_1_n_n.rhsIdx (ix2 p q) ((ValueIdx.contrEquiv1 dot_S16x128_S128x8192_S16x8192_1_0_0_1_n_n 128 rfl rfl).symm k) = ix2 k q := funext fun a => Fin.ext (by
    match a with
    | ⟨0, _⟩ => exact (rhs_segment_0 _ _).trans hk
    | ⟨1, _⟩ => exact rhs_segment_1 _ _)
  rw [el, er]

/-! ## One partial sum -/

/-- One partial sum's contribution at order `p`, column `q`, from its three selector blocks `A1 A2 AS`, its table
    block `W` and the two feature tiles. -/
def partialSum (A1 A2 : FVec Ideal S128x16 .bf16) (AS : FVec Ideal S16x128 .bf16) (W : FVec Ideal S128x8192 .f32)
    (X1 X2 : FVec Ideal S16x8192 .bf16) (p : Fin 16) (q : Fin 8192) : EReal :=
  ∑ j : Fin 128, AS (ix2 p j) * (((∑ m : Fin 16, A1 (ix2 j m) * X1 (ix2 m q)) * (∑ m : Fin 16, A2 (ix2 j m) * X2 (ix2 m q))) * W (ix2 j q))

/-- The body's three products and two multiplications for one partial sum, at an entry. -/
theorem contribution_apply (A1 A2 : FVec Ideal S128x16 .bf16) (AS : FVec Ideal S16x128 .bf16) (W : FVec Ideal S128x8192 .f32)
    (X1 X2 : FVec Ideal S16x8192 .bf16) (p : Fin 16) (q : Fin 8192) :
    matmul dot_S16x128_S128x8192_S16x8192_1_0_0_1_n_n none AS
        (truncf .bf16 (mulf (mulf (matmul dot_S128x16_S16x8192_S128x8192_1_0_0_1_n_n none A1 X1 (constant S128x8192 .f32 0x00000000#32))
          (matmul dot_S128x16_S16x8192_S128x8192_1_0_0_1_n_n none A2 X2 (constant S128x8192 .f32 0x00000000#32))) W) bitsLt_bf16_f32)
        (constant S16x8192 .f32 0x00000000#32) (ix2 p q)
      = partialSum A1 A2 AS W X1 X2 p q := by
  refine (segmentProduct_apply AS _ p q).trans ?_
  unfold partialSum
  refine Finset.sum_congr rfl fun j _ => ?_
  refine congrArg (AS (ix2 p j) * ·) ?_
  show (matmul dot_S128x16_S16x8192_S128x8192_1_0_0_1_n_n none A1 X1 (constant S128x8192 .f32 0x00000000#32) (ix2 j q)
      * matmul dot_S128x16_S16x8192_S128x8192_1_0_0_1_n_n none A2 X2 (constant S128x8192 .f32 0x00000000#32) (ix2 j q)) * W (ix2 j q) = _
  rw [gatherProduct_apply, gatherProduct_apply]

/-! ## The body's value from the six blocks -/

/-- The feature tiles pass through a same-shape cast and a change of format unchanged. -/
theorem feature_cast (x : Vec Ideal S16x8192 .f32) : k0_pay2 (F := Ideal) x = x := by
  unfold k0_pay2
  funext i
  exact congrFun (shapeCast_self x shapeCasts_S16x8192_S16x8192) i
theorem feature_cast' (x : Vec Ideal S16x8192 .f32) : k0_pay3 (F := Ideal) x = x := by
  unfold k0_pay3
  funext i
  exact congrFun (shapeCast_self x shapeCasts_S16x8192_S16x8192) i

/-- The first partial sum, added to the zero splat. -/
theorem first_apply (v0 v3 : Vec Ideal S16x8192 .f32) (v10 v13 : Vec Ideal S128x16 .bf16) (v16 : Vec Ideal S16x128 .bf16)
    (v19 : Vec Ideal S128x8192 .f32) (p : Fin 16) (q : Fin 8192) :
    k0_pay4 (F := Ideal) v0 v3 v10 v13 v16 v19 (ix2 p q) = 0 + partialSum v10 v13 v16 v19 v0 v3 p q := by
  unfold k0_pay4
  rw [feature_cast, feature_cast', shapeCast_self v10, shapeCast_self v13, shapeCast_self v16, shapeCast_self v19]
  show Ideal.ofBits .f32 0x00000000#32 + _ = _
  rw [Ideal.ofBits_zero_f32]
  exact congrArg (0 + ·) (contribution_apply v10 v13 v16 v19 v0 v3 p q)

/-- The second and third partial sums, added to what came before. -/
theorem middle_apply (v2 v5 : FVec Ideal S16x8192 .bf16) (v27 : FVec Ideal S16x8192 .f32) (v32 v35 : FVec Ideal S128x16 .bf16)
    (v38 : FVec Ideal S16x128 .bf16) (v40 : Vec Ideal S128x8192 .f32) (v52 v55 : Vec Ideal S128x16 .bf16) (v58 : Vec Ideal S16x128 .bf16)
    (v61 : Vec Ideal S128x8192 .f32) (p : Fin 16) (q : Fin 8192) :
    k0_pay8 (F := Ideal) v2 v5 v27 v32 v35 v38 v40 v52 v55 v58 v61 (ix2 p q)
      = (v27 (ix2 p q) + partialSum v32 v35 v38 v40 v2 v5 p q) + partialSum v52 v55 v58 v61 v2 v5 p q := by
  unfold k0_pay8
  rw [shapeCast_self v40, shapeCast_self v52, shapeCast_self v55, shapeCast_self v58, shapeCast_self v61]
  show (v27 (ix2 p q) + _) + _ = _
  rw [contribution_apply v32 v35 v38 v40 v2 v5 p q, contribution_apply v52 v55 v58 v61 v2 v5 p q]

/-- The fourth partial sum, added to what came before: the stored value. -/
theorem last_apply (v2 v5 : FVec Ideal S16x8192 .bf16) (v69 : FVec Ideal S16x8192 .f32) (v74 v77 : FVec Ideal S128x16 .bf16)
    (v80 : FVec Ideal S16x128 .bf16) (v82 : Vec Ideal S128x8192 .f32) (p : Fin 16) (q : Fin 8192) :
    k0_pay1 (F := Ideal) v2 v5 v69 v74 v77 v80 v82 (ix2 p q) = v69 (ix2 p q) + partialSum v74 v77 v80 v82 v2 v5 p q := by
  unfold k0_pay1
  rw [shapeCast_self v82]
  show v69 (ix2 p q) + _ = _
  rw [contribution_apply v74 v77 v80 v82 v2 v5 p q]

/-- The three selector blocks pass through their same-shape casts unchanged. -/
theorem rows_cast (x : Vec Ideal S128x16 .bf16) : k0_pay5 (F := Ideal) x = x := by unfold k0_pay5; exact shapeCast_self x _
theorem rows_cast' (x : Vec Ideal S128x16 .bf16) : k0_pay6 (F := Ideal) x = x := by unfold k0_pay6; exact shapeCast_self x _
theorem cols_cast (x : Vec Ideal S16x128 .bf16) : k0_pay7 (F := Ideal) x = x := by unfold k0_pay7; exact shapeCast_self x _
theorem rows_cast'' (x : Vec Ideal S128x16 .bf16) : k0_pay9 (F := Ideal) x = x := by unfold k0_pay9; exact shapeCast_self x _
theorem rows_cast''' (x : Vec Ideal S128x16 .bf16) : k0_pay10 (F := Ideal) x = x := by unfold k0_pay10; exact shapeCast_self x _
theorem cols_cast' (x : Vec Ideal S16x128 .bf16) : k0_pay11 (F := Ideal) x = x := by unfold k0_pay11; exact shapeCast_self x _

/-! ## The loaded blocks at an entry -/

/-- Rows `o … o + 127` of a `512 × 16` selector table: entry `(j, m)` is the table's `(o + j, m)`. -/
theorem selectorRows_apply (x : Vec Ideal S512x16 .bf16) (o : Nat) (ho : o + 128 ≤ 512)
    (inb : ∀ a, (![o, 0] : Fin 2 → Nat) a + S128x16.size a ≤ S512x16.size a) (j : Fin 128) (m : Fin 16) :
    View.ld x (Rect.unit (s := S512x16) ![o, 0] S128x16.size inb) (ix2 j m) = x (ix2 (⟨o + j.val, by omega⟩ : Fin 512) m) :=
  congrArg x (funext fun a => Fin.ext (by
    match a with
    | ⟨0, _⟩ => show o + 1 * j.val = o + j.val; omega
    | ⟨1, _⟩ => show 0 + 1 * m.val = m.val; omega))

/-- Columns `o … o + 127` of the `16 × 512` output-order table: entry `(p, j)` is the table's `(p, o + j)`. -/
theorem selectorCols_apply (x : Vec Ideal S16x512 .bf16) (o : Nat) (ho : o + 128 ≤ 512)
    (inb : ∀ a, (![0, o] : Fin 2 → Nat) a + S16x128.size a ≤ S16x512.size a) (p : Fin 16) (j : Fin 128) :
    View.ld x (Rect.unit (s := S16x512) ![0, o] S16x128.size inb) (ix2 p j) = x (ix2 p (⟨o + j.val, by omega⟩ : Fin 512)) :=
  congrArg x (funext fun a => Fin.ext (by
    match a with
    | ⟨0, _⟩ => show 0 + 1 * p.val = p.val; omega
    | ⟨1, _⟩ => show o + 1 * j.val = o + j.val; omega))

/-- Rows `o … o + 127` of the `512 × 8192` table: entry `(j, q)` is the table's `(o + j, q)`. -/
theorem tableRows_apply (x : Vec Ideal S512x8192 .f32) (o : Nat) (ho : o + 128 ≤ 512)
    (inb : ∀ a, (![o, 0] : Fin 2 → Nat) a + S128x8192.size a ≤ S512x8192.size a) (j : Fin 128) (q : Fin 8192) :
    View.ld x (Rect.unit (s := S512x8192) ![o, 0] S128x8192.size inb) (ix2 j q) = x (ix2 (⟨o + j.val, by omega⟩ : Fin 512) q) :=
  congrArg x (funext fun a => Fin.ext (by
    match a with
    | ⟨0, _⟩ => show o + 1 * j.val = o + j.val; omega
    | ⟨1, _⟩ => show 0 + 1 * q.val = q.val; omega))

/-- A partial sum over blocks that are rows / columns `o … o + 127` of the resident tables is the sum of the tile's
    terms `o … o + 127`. -/
theorem partialSum_of_blocks (x0 x1 : Vec Ideal S16x8192 .f32) (x2 x3 : Vec Ideal S512x16 .bf16) (x4 : Vec Ideal S16x512 .bf16)
    (x5 : Vec Ideal S512x8192 .f32) (o : Nat) (ho : o + 128 ≤ 512)
    (A1 A2 : FVec Ideal S128x16 .bf16) (AS : FVec Ideal S16x128 .bf16) (W : FVec Ideal S128x8192 .f32)
    (h1 : ∀ (j : Fin 128) (m : Fin 16), A1 (ix2 j m) = x2 (ix2 (⟨o + j.val, by omega⟩ : Fin 512) m))
    (h2 : ∀ (j : Fin 128) (m : Fin 16), A2 (ix2 j m) = x3 (ix2 (⟨o + j.val, by omega⟩ : Fin 512) m))
    (hs : ∀ (p : Fin 16) (j : Fin 128), AS (ix2 p j) = x4 (ix2 p (⟨o + j.val, by omega⟩ : Fin 512)))
    (hw : ∀ (j : Fin 128) (q : Fin 8192), W (ix2 j q) = x5 (ix2 (⟨o + j.val, by omega⟩ : Fin 512) q))
    (p : Fin 16) (q : Fin 8192) :
    partialSum A1 A2 AS W x0 x1 p q
      = ∑ j : Fin 128, tileTerm x2 x3 x4 (fun m => x0 (ix2 m q)) (fun m => x1 (ix2 m q)) (fun n => x5 (ix2 n q)) p
          (⟨o + j.val, by have := j.isLt; omega⟩ : Fin 512) := by
  unfold partialSum tileTerm
  refine Finset.sum_congr rfl fun j _ => ?_
  rw [hs p j, hw j q]
  simp only [h1, h2]

/-- The body's output block is `tileOut` of the blocks it was called with. -/
theorem out0_A_6_eq (c : Dev nD) (i : grid0.Coords) (arg1 : Memref sig .tc .vmem S16x8192 .f32) (harg1 : arg1.IsWhole) (arg2 : Memref sig .tc .vmem S16x8192 .f32) (harg2 : arg2.IsWhole) (arg3 : Memref sig .tc .vmem S512x16 .bf16) (harg3 : arg3.IsWhole) (arg4 : Memref sig .tc .vmem S512x16 .bf16) (harg4 : arg4.IsWhole) (arg5 : Memref sig .tc .vmem S16x512 .bf16) (harg5 : arg5.IsWhole) (arg6 : Memref sig .tc .vmem S512x8192 .f32) (harg6 : arg6.IsWhole) (arg7 : Memref sig .tc .vmem S16x8192 .f32) (harg7 : arg7.IsWhole)
    (x0 x1 : Vec Ideal S16x8192 .f32) (x2 x3 : Vec Ideal S512x16 .bf16) (x4 : Vec Ideal S16x512 .bf16) (x5 : Vec Ideal S512x8192 .f32) :
    out0_A_6 (F := Ideal) c i arg1 harg1 arg2 harg2 arg3 harg3 arg4 harg4 arg5 harg5 arg6 harg6 arg7 harg7 x0 x1 x2 x3 x4 x5
      = tileOut x0 x1 x2 x3 x4 x5 := by
  have hz : (![0, 0] : Fin 2 → Nat) = fun _ => 0 := by funext a; match a with | ⟨0, _⟩ => rfl | ⟨1, _⟩ => rfl
  unfold out0_A_6
  rw [View.read_writes_eq_canon _ _ _ (cover0_A_6 c i arg1 harg1 arg2 harg2 arg3 harg3 arg4 harg4 arg5 harg5 arg6 harg6 arg7 harg7 x0 x1 x2 x3 x4 x5)]
  unfold kernelRun0_A
  dsimp only
  sl_unfold_words
  rw [View.canon_unit_zero hz]
  simp only [View.readAt_eq_ld, harg1.read_unread, harg2.read_unread, harg3.read_unread, harg4.read_unread, harg5.read_unread, harg6.read_unread,
    View.ld_unit_zero (S := S16x8192) hz]
  funext y
  obtain ⟨p, q, rfl⟩ : ∃ (p : Fin 16) (q : Fin 8192), y = ix2 p q := ⟨y 0, y 1, eq_ix2 y⟩
  rw [last_apply, middle_apply, first_apply, feature_cast, feature_cast', rows_cast, rows_cast', cols_cast, rows_cast'', rows_cast''', cols_cast']
  unfold tileOut tileAcc
  refine congrArg₂ (· + ·) (congrArg₂ (· + ·) (congrArg₂ (· + ·) (congrArg (0 + ·) ?_) ?_) ?_) ?_
  · exact partialSum_of_blocks x0 x1 x2 x3 x4 x5 0 (by omega) _ _ _ _ (fun j m => selectorRows_apply x2 0 (by omega) _ j m)
      (fun j m => selectorRows_apply x3 0 (by omega) _ j m) (fun p j => selectorCols_apply x4 0 (by omega) _ p j)
      (fun j q => tableRows_apply x5 0 (by omega) _ j q) p q
  · exact partialSum_of_blocks x0 x1 x2 x3 x4 x5 128 (by omega) _ _ _ _ (fun j m => selectorRows_apply x2 128 (by omega) _ j m)
      (fun j m => selectorRows_apply x3 128 (by omega) _ j m) (fun p j => selectorCols_apply x4 128 (by omega) _ p j)
      (fun j q => tableRows_apply x5 128 (by omega) _ j q) p q
  · exact partialSum_of_blocks x0 x1 x2 x3 x4 x5 256 (by omega) _ _ _ _ (fun j m => selectorRows_apply x2 256 (by omega) _ j m)
      (fun j m => selectorRows_apply x3 256 (by omega) _ j m) (fun p j => selectorCols_apply x4 256 (by omega) _ p j)
      (fun j q => tableRows_apply x5 256 (by omega) _ j q) p q
  · exact partialSum_of_blocks x0 x1 x2 x3 x4 x5 384 (by omega) _ _ _ _ (fun j m => selectorRows_apply x2 384 (by omega) _ j m)
      (fun j m => selectorRows_apply x3 384 (by omega) _ j m) (fun p j => selectorCols_apply x4 384 (by omega) _ p j)
      (fun j q => tableRows_apply x5 384 (by omega) _ j q) p q

end Cert.Wtp.Tile

end
-- ==== Proof.KernelRun.lean ====
/-
  The kernel program's output array after the region, read as a value: each grid point writes back the tile its
  column range names — the tile computed from the two feature tiles at that column range and the four resident
  tables —, and the tiles cover the array; so the array ends as `arrayOut` of the six window arrays.
-/
import proofs.«424091_j5231270166733_3_alg».proof.Proof.Gen.KernelIdeal.Frame
import proofs.«424091_j5231270166733_3_alg».proof.Proof.Spec
import proofs.«424091_j5231270166733_3_alg».proof.Proof.Tile
import Idealize.ShloMosaic.Lib.Pipeline.Value
import Idealize.ShloMosaic.Lib.ValueIdx
import Idealize.ShloMosaic.Lib.ValueLayout
import Idealize.ShloMosaic.Lib.StableHlo.Run

noncomputable section

namespace Cert.Wtp.Run

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Wtp

variable (m : (ℓ : Loc nD τ sig) → Buf (Elt Ideal) ℓ) (ρ : Dev nD → PrngReg)

/-! ## The window arrays and their blocks, each at its literal type -/

/-- The first feature array, relaid as `[16, 262144]`. -/
abbrev arrX1 (c : Dev nD) : Vec Ideal S16x262144 .f32 := V m c main_v40
/-- The second feature array, relaid as `[16, 262144]`. -/
abbrev arrX2 (c : Dev nD) : Vec Ideal S16x262144 .f32 := V m c main_v42
/-- The first table of selected rows, `[512, 16]`. -/
abbrev arrO1 (c : Dev nD) : Vec Ideal S512x16 .bf16 := V m c main_v11
/-- The second table of selected rows, `[512, 16]`. -/
abbrev arrO2 (c : Dev nD) : Vec Ideal S512x16 .bf16 := V m c main_v17
/-- The table of output orders, `[16, 512]`. -/
abbrev arrOS (c : Dev nD) : Vec Ideal S16x512 .bf16 := V m c main_v24
/-- The table of weights, `[512, 8192]`. -/
abbrev arrWC (c : Dev nD) : Vec Ideal S512x8192 .f32 := V m c main_v38

/-- The first feature array's columns `8192·t … 8192·t + 8191`. -/
abbrev blkX1 (c : Dev nD) (t : Fin cfg0.N) : Vec Ideal S16x8192 .f32 := iblk m c 0 t
/-- The second feature array's columns `8192·t … 8192·t + 8191`. -/
abbrev blkX2 (c : Dev nD) (t : Fin cfg0.N) : Vec Ideal S16x8192 .f32 := iblk m c 1 t
/-- The four tables' blocks at a point: each is the whole table. -/
abbrev blkO1 (c : Dev nD) (t : Fin cfg0.N) : Vec Ideal S512x16 .bf16 := iblk m c 2 t
abbrev blkO2 (c : Dev nD) (t : Fin cfg0.N) : Vec Ideal S512x16 .bf16 := iblk m c 3 t
abbrev blkOS (c : Dev nD) (t : Fin cfg0.N) : Vec Ideal S16x512 .bf16 := iblk m c 4 t
abbrev blkWC (c : Dev nD) (t : Fin cfg0.N) : Vec Ideal S512x8192 .f32 := iblk m c 5 t

/-! ## Block reads -/

/-- The index maps over the grid: the feature windows and the output window are at column block `t`, the tables at block
    `(0, 0)`. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = t.val :=
  (by decide +kernel : ∀ t : Fin grid0.N, _)

/-- Entry `(p, y)` of the first feature block at point `t` is the array's entry `(p, 8192·t + y)`. -/
theorem blkX1_apply (c : Dev nD) (t : Fin cfg0.N) (p : Fin 16) (y : Fin 8192) (q : Fin 262144) (hq : q.val = 8192 * t.val + y.val) :
    blkX1 m c t (ix2 p y) = arrX1 m c (ix2 p q) := by
  obtain ⟨e0, e1, -⟩ := idx_facts t
  unfold blkX1 arrX1 iblk
  rw [View.read_apply]
  show V m c main_v40 _ = V m c main_v40 _
  congr 1
  funext a
  apply Fin.ext
  match a with
  | ⟨0, _⟩ => show win0_0.index t 0 * 16 + 1 * p.val = p.val; rw [e0]; omega
  | ⟨1, _⟩ => show win0_0.index t 1 * 8192 + 1 * y.val = q.val; rw [e1, hq]; omega

/-- Entry `(p, y)` of the second feature block at point `t` is the array's entry `(p, 8192·t + y)`. -/
theorem blkX2_apply (c : Dev nD) (t : Fin cfg0.N) (p : Fin 16) (y : Fin 8192) (q : Fin 262144) (hq : q.val = 8192 * t.val + y.val) :
    blkX2 m c t (ix2 p y) = arrX2 m c (ix2 p q) := by
  obtain ⟨-, -, e0, e1, -⟩ := idx_facts t
  unfold blkX2 arrX2 iblk
  rw [View.read_apply]
  show V m c main_v42 _ = V m c main_v42 _
  congr 1
  funext a
  apply Fin.ext
  match a with
  | ⟨0, _⟩ => show win0_1.index t 0 * 16 + 1 * p.val = p.val; rw [e0]; omega
  | ⟨1, _⟩ => show win0_1.index t 1 * 8192 + 1 * y.val = q.val; rw [e1, hq]; omega

/-- A table's block at any point is the table. -/
theorem blkO1_eq (c : Dev nD) (t : Fin cfg0.N) : blkO1 m c t = arrO1 m c := by
  obtain ⟨-, -, -, -, e0, e1, -⟩ := idx_facts t
  funext i
  unfold blkO1 arrO1 iblk
  rw [View.read_apply]
  show V m c main_v11 _ = V m c main_v11 _
  congr 1
  funext a
  apply Fin.ext
  match a with
  | ⟨0, _⟩ => show win0_2.index t 0 * 512 + 1 * (i 0).val = (i 0).val; rw [e0]; omega
  | ⟨1, _⟩ => show win0_2.index t 1 * 16 + 1 * (i 1).val = (i 1).val; rw [e1]; omega

/-- A table's block at any point is the table. -/
theorem blkO2_eq (c : Dev nD) (t : Fin cfg0.N) : blkO2 m c t = arrO2 m c := by
  obtain ⟨-, -, -, -, -, -, e0, e1, -⟩ := idx_facts t
  funext i
  unfold blkO2 arrO2 iblk
  rw [View.read_apply]
  show V m c main_v17 _ = V m c main_v17 _
  congr 1
  funext a
  apply Fin.ext
  match a with
  | ⟨0, _⟩ => show win0_3.index t 0 * 512 + 1 * (i 0).val = (i 0).val; rw [e0]; omega
  | ⟨1, _⟩ => show win0_3.index t 1 * 16 + 1 * (i 1).val = (i 1).val; rw [e1]; omega

/-- A table's block at any point is the table. -/
theorem blkOS_eq (c : Dev nD) (t : Fin cfg0.N) : blkOS m c t = arrOS m c := by
  obtain ⟨-, -, -, -, -, -, -, -, e0, e1, -⟩ := idx_facts t
  funext i
  unfold blkOS arrOS iblk
  rw [View.read_apply]
  show V m c main_v24 _ = V m c main_v24 _
  congr 1
  funext a
  apply Fin.ext
  match a with
  | ⟨0, _⟩ => show win0_4.index t 0 * 16 + 1 * (i 0).val = (i 0).val; rw [e0]; omega
  | ⟨1, _⟩ => show win0_4.index t 1 * 512 + 1 * (i 1).val = (i 1).val; rw [e1]; omega

/-- A table's block at any point is the table. -/
theorem blkWC_eq (c : Dev nD) (t : Fin cfg0.N) : blkWC m c t = arrWC m c := by
  obtain ⟨-, -, -, -, -, -, -, -, -, -, e0, e1, -⟩ := idx_facts t
  funext i
  unfold blkWC arrWC iblk
  rw [View.read_apply]
  show V m c main_v38 _ = V m c main_v38 _
  congr 1
  funext a
  apply Fin.ext
  match a with
  | ⟨0, _⟩ => show win0_5.index t 0 * 512 + 1 * (i 0).val = (i 0).val; rw [e0]; omega
  | ⟨1, _⟩ => show win0_5.index t 1 * 8192 + 1 * (i 1).val = (i 1).val; rw [e1]; omega

/-! ## A tile is its part of the whole result -/

/-- The accumulated sum depends on its feature columns, its table column and its order only through their values. -/
theorem tileAcc_congr {O1 O2 : SR.Idx → EReal} {OS : SC.Idx → EReal} {XA XA' XB XB' : Fin 16 → EReal} {T T' : Fin 512 → EReal} {o o' : Fin 16}
    (hA : ∀ a, XA a = XA' a) (hB : ∀ a, XB a = XB' a) (hT : ∀ n, T n = T' n) (ho : o = o') :
    tileAcc O1 O2 OS XA XB T o = tileAcc O1 O2 OS XA' XB' T' o' := by
  obtain rfl : XA = XA' := funext hA
  obtain rfl : XB = XB' := funext hB
  obtain rfl : T = T' := funext hT
  rw [ho]

/-- The tile of a point at a local index is the whole result at the index it names in the array. -/
theorem tile_at (c : Dev nD) (t : Fin cfg0.N) (j : S16x8192.Idx) (i : S16x262144.Idx)
    (h0 : (i 0).val = (j 0).val) (h1 : (i 1).val = 8192 * t.val + (j 1).val) :
    tileOut (blkX1 m c t) (blkX2 m c t) (blkO1 m c t) (blkO2 m c t) (blkOS m c t) (blkWC m c t) j
      = arrayOut (arrX1 m c) (arrX2 m c) (arrO1 m c) (arrO2 m c) (arrOS m c) (arrWC m c) i := by
  rw [blkO1_eq, blkO2_eq, blkOS_eq, blkWC_eq]
  have hj : (j 1).val < 8192 := (j 1).isLt
  have hmod : (i 1).val % 8192 = (j 1).val := by omega
  show tileAcc _ _ _ _ _ _ _ = tileAcc _ _ _ _ _ _ _
  refine tileAcc_congr (fun a => blkX1_apply m c t a _ _ h1) (fun a => blkX2_apply m c t a _ _ h1) (fun n => ?_) (Fin.ext h0.symm)
  exact congrArg (arrWC m c) (congrArg (ix2 n) (Fin.ext hmod.symm))

/-! ## The write-backs and the array -/

/-- What point `t` writes back is its block of the whole result. -/
theorem flushed_eq (c : Dev nD) (t : Fin cfg0.N) :
    (dats m 0 c).flushed 6 t = ((cfg0.win 6).blk t).view.read (Elt Ideal)
      (arrayOut (arrX1 m c) (arrX2 m c) (arrO1 m c) (arrO2 m c) (arrOS m c) (arrWC m c)) := by
  show (cfg0.win 6).cut (grid0.coords t) ((dats m 0 c).after 6 t) = _
  rw [after0_6]
  unfold outsAt0
  rw [Cert.Wtp.Tile.out0_A_6_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (blkX1 m c t) (blkX2 m c t) (blkO1 m c t) (blkO2 m c t) (blkOS m c t) (blkWC m c t)]
  obtain ⟨-, -, -, -, -, -, -, -, -, -, -, -, e0, e1⟩ := idx_facts t
  funext j
  rw [View.read_apply]
  refine tile_at m c t j _ ?_ ?_
  · show win0_6.index t 0 * 16 + 1 * (j 0).val = (j 0).val
    rw [e0]; omega
  · show win0_6.index t 1 * 8192 + 1 * (j 1).val = 8192 * t.val + (j 1).val
    rw [e1]; omega

/-- An index of the array is in point `t`'s block iff each coordinate is in the block's range on its axis. -/
theorem mem_blk (t : Fin cfg0.N) (i : S16x262144.Idx) :
    i ∈ ((cfg0.win 6).blk t).view.set ↔ ∀ a : Fin 2, win0_6.index t a * S16x8192.size a ≤ (i a).val ∧ (i a).val < win0_6.index t a * S16x8192.size a + S16x8192.size a := by
  show i ∈ ((View.whole main_v43).slice (win0_6.rect t)).set ↔ _
  rw [View.set_slice_whole, Rect.mem_set_unit]
  exact Iff.rfl

/-- Column `q` of the array lies in the block of point `q / 8192`. -/
theorem cover (i : S16x262144.Idx) : ∃ t : Fin cfg0.N, (cfg0.win 6).flush t = true ∧ i ∈ ((cfg0.win 6).blk t).view.set := by
  have hi0 : (i 0).val < 16 := (i 0).isLt
  have hi1 : (i 1).val < 262144 := (i 1).isLt
  have hN : cfg0.N = 32 := N_0
  let t : Fin cfg0.N := ⟨(i 1).val / 8192, by rw [hN]; omega⟩
  obtain ⟨-, -, -, -, -, -, -, -, -, -, -, -, e0, e1⟩ := idx_facts t
  have ht : t.val = (i 1).val / 8192 := rfl
  refine ⟨t, flush0_6 t, ?_⟩
  rw [mem_blk]
  intro a
  match a with
  | ⟨0, _⟩ => show win0_6.index t (0 : Fin 2) * 16 ≤ (i 0).val ∧ (i 0).val < win0_6.index t (0 : Fin 2) * 16 + 16; rw [e0]; omega
  | ⟨1, _⟩ => show win0_6.index t (1 : Fin 2) * 8192 ≤ (i 1).val ∧ (i 1).val < win0_6.index t (1 : Fin 2) * 8192 + 8192; rw [e1, ht]; omega

/-- The output array after the last grid point. -/
theorem final6 (c : Dev nD) : ((dats m 0 c).arrAt 6 cfg0.N : SQ.Idx → EReal)
    = arrayOut (V m c main_v40) (V m c main_v42) (V m c main_v11) (V m c main_v17) (V m c main_v24) (V m c main_v38) :=
  (dats m 0 c).arrAt_eq_of_cover 6 (arrayOut (arrX1 m c) (arrX2 m c) (arrO1 m c) (arrO2 m c) (arrOS m c) (arrWC m c))
    (fun t _ => flushed_eq m c t) cover

end Cert.Wtp.Run

end
-- ==== Proof.KernelValue.lean ====
/-
  The kernel program's run read as a value: after the region the output array is `arrayOut` of the six window
  arrays; the two host operations after the region (a reshape to `[16, 2048, 128]` and a transposition of the first
  two axes) relay it back to `[2048, 16, 128]`; with the window arrays as functions of the arguments, the result is
  `tileSum` of the arguments, and the arguments are unchanged.
-/
import proofs.«424091_j5231270166733_3_alg».proof.Proof.Gen.KernelIdeal.Frame
import proofs.«424091_j5231270166733_3_alg».proof.Proof.Spec
import proofs.«424091_j5231270166733_3_alg».proof.Proof.HostTables
import proofs.«424091_j5231270166733_3_alg».proof.Proof.HostWcg
import proofs.«424091_j5231270166733_3_alg».proof.Proof.KernelRun
import Idealize.ShloMosaic.Lib.Pipeline.Value
import Idealize.ShloMosaic.Lib.ValueIdx
import Idealize.ShloMosaic.Lib.ValueLayout
import Idealize.ShloMosaic.Lib.StableHlo.Run

noncomputable section

namespace Cert.Wtp.Value

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Wtp

variable (m : (ℓ : Loc nD τ sig) → Buf (Elt Ideal) ℓ) (ρ : Dev nD → PrngReg)

/-- The two layout operations after the region: a `[16, 262144]` array recast as `[16, 2048, 128]` and its first two
    axes exchanged reads, at `(b, o, k)`, the array's entry `(o, 128·b + k)`. -/
theorem relay_back (A : S16x262144.Idx → EReal) (h1 : S16x262144.ShapeCasts S16x2048x128)
    (h2 : S16x2048x128.Transposes [1, 0, 2] S2048x16x128) :
    transpose S2048x16x128 [1, 0, 2] (shapeCast S16x2048x128 A h1) h2 = unrelay A := by
  funext i
  obtain ⟨b, o, k, rfl⟩ : ∃ (b : Fin 2048) (o : Fin 16) (k : Fin 128), i = ix3 b o k := ⟨i 0, i 1, i 2, eq_ix3 i⟩
  have hb : b.val < 2048 := b.isLt
  have hk : k.val < 128 := k.isLt
  refine (transpose_apply [1, 0, 2] (shapeCast S16x2048x128 A h1) h2 (ix3 b o k) (ix3 o b k) ?_).trans ?_
  · intro a
    match a with
    | ⟨0, _⟩ => rfl
    | ⟨1, _⟩ => rfl
    | ⟨2, _⟩ => rfl
  refine (shapeCast_apply A h1 (ix3 o b k) (ix2 o (⟨b.val * 128 + k.val, by omega⟩ : Fin 262144)) ?_).trans ?_
  · rw [Shape.rowMajor_val_two, Shape.rowMajor_val_three]
    show o.val * 262144 + (b.val * 128 + k.val) = (o.val * 2048 + b.val) * 128 + k.val
    omega
  · rfl

/-- What the lines after the region leave in the result buffer: `tileSum` of the arguments. -/
theorem tail_eq (c : Dev nD) :
    Pipeline.afterTail₀ cfgs (dats m) 0 (V0 m) [hostOps1] c main_v45
      = tileSum (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  have hW : (Pipeline.withArrays (cfgs 0).spec c (V0 m c) (fun w => (dats m 0 c).arrAt w (cfgs 0).N) (Proc.devRef .tc main_v43) : SQ.Idx → EReal)
      = arrayOut (V m c main_v40) (V m c main_v42) (V m c main_v11) (V m c main_v17) (V m c main_v24) (V m c main_v38) :=
    (Pipeline.withArrays_arr spec0 launch0.win.arr_inj c _ _ 6).trans (Cert.Wtp.Run.final6 m c)
  unfold Pipeline.afterTail₀
  show StableHlo.after hostOps1 _ (Proc.devRef .tc main_v45) = _
  after_results
  show transpose S2048x16x128 [1, 0, 2] (shapeCast S16x2048x128 (Pipeline.withArrays (cfgs 0).spec c (V0 m c) (fun w => (dats m 0 c).arrAt w (cfgs 0).N) (Proc.devRef .tc main_v43)) shapeCasts_S16x262144_S16x2048x128) transposes_S16x2048x128_S2048x16x128_1_0_2 = _
  refine (relay_back _ _ _).trans ?_
  refine (congrArg unrelay hW).trans ?_
  rw [Host.V_x1 m c, Host.V_x2 m c, Host.V_oh1 m c, Host.V_oh2 m c, Host.V_ohs m c, Host.V_wcg m c]
  rfl

/-- The kernel program's run with its result named. -/
theorem kernel_run : θ_run defs (onTc (τ := τ) (main (F := Ideal))) ⟨m, fun _ => 0, ρ⟩ (fun r => ∀ c : Dev nD,
      r.2.mem ((c.tc : Thread nD τ).loc main_v45)
        = tileSum (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v45 (Pipeline.mem_restRefs_of main_v45 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.Wtp.Value

end
-- ==== Proof.lean ====
/-
  The weighted tensor product kernel against its reference, over the extended reals.

  The kernel relays the two feature arrays to `[16, 262144]`, builds one-hot selector tables for the two row reads
  and the output order and a pre-multiplied `weight · cg` table, and per tile of `8192` columns adds four partial sums
  of `128` terms (two selector products, two multiplications, one segment product each); the reference gathers rows,
  multiplies, and scatter-adds along the order axis. With every word of the three order columns in `[0, 16)` (the
  added precondition: outside it the reference's indexed reads and its scatter are out of range) the one-hot
  products select exactly the gathered rows and the padded terms vanish, so both programs compute the same segment
  sum at every entry.

  The three frames are the generated runs; the idealization rewrote nothing, so `preserves` is trivial; the algebraic
  claim pairs the kernel's run read as a value (`Cert.Wtp.Value.kernel_run`) with the reference's generated run read at
  an entry (`Cert.Wtp.ref_apply`) through `Cert.Wtp.tileSum_eq_refSum`.
-/
import proofs.«424091_j5231270166733_3_alg».proof.Defs
import proofs.«424091_j5231270166733_3_alg».proof.Proof.Gen.Kernel
import proofs.«424091_j5231270166733_3_alg».proof.Proof.Gen.Kernel.Skeleton
import proofs.«424091_j5231270166733_3_alg».proof.Proof.Gen.Kernel.Launch
import proofs.«424091_j5231270166733_3_alg».proof.Proof.Gen.Kernel.Points
import proofs.«424091_j5231270166733_3_alg».proof.Proof.Gen.Kernel.Frame
import proofs.«424091_j5231270166733_3_alg».proof.Proof.Gen.KernelIdeal
import proofs.«424091_j5231270166733_3_alg».proof.Proof.Gen.KernelIdeal.Skeleton
import proofs.«424091_j5231270166733_3_alg».proof.Proof.Gen.KernelIdeal.Launch
import proofs.«424091_j5231270166733_3_alg».proof.Proof.Gen.KernelIdeal.Points
import proofs.«424091_j5231270166733_3_alg».proof.Proof.Gen.KernelIdeal.Frame
import proofs.«424091_j5231270166733_3_alg».proof.Proof.Gen.ReferenceIdeal
import proofs.«424091_j5231270166733_3_alg».proof.Proof.Gen.ReferenceIdeal.Run
import proofs.«424091_j5231270166733_3_alg».proof.Proof.Gen.ReferenceIdeal.Read
import proofs.«424091_j5231270166733_3_alg».proof.Proof.Gen.Pre_finite_inputs
import proofs.«424091_j5231270166733_3_alg».proof.Proof.Spec
import proofs.«424091_j5231270166733_3_alg».proof.Proof.RefRead
import proofs.«424091_j5231270166733_3_alg».proof.Proof.PreRanges
import proofs.«424091_j5231270166733_3_alg».proof.Proof.Bridge
import proofs.«424091_j5231270166733_3_alg».proof.Proof.KernelValue
import Idealize.ShloMosaic.Adequacy
import Idealize.ShloMosaic.Init

noncomputable section

namespace Cert.Proof

open Idealize.ShloMosaic Idealize.ShloMosaic.TcCoe Idealize.ShloMosaic.ValueIdx Idealize.SL.Sem

/-- The two idealized programs end with equal results: the kernel's is the tiled sum, the reference's the segment
    sum, and under the order ranges they agree entry by entry. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, Cert.Wtp.Value.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨h1, h2, hs⟩ := Cert.Wtp.ranges_of_fn _ _ _ _ _ _ _ _ (hpre c)
  rw [Cert.ReferenceIdeal.Read.val_main_v34_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  funext i
  obtain ⟨b, o, k, rfl⟩ : ∃ (b : Fin 2048) (o : Fin 16) (k : Fin 128), i = ix3 b o k := ⟨i 0, i 1, i 2, eq_ix3 i⟩
  exact (Cert.Wtp.ref_apply _ _ _ _ _ _ _ _ b o k).trans (Cert.Wtp.tileSum_eq_refSum _ _ _ _ _ _ _ _ h1 h2 hs b o k).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
